-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x14x14x16 : Shape := ⟨5, ![16, 1024, 14, 14, 16]⟩
abbrev S16x16 : Shape := ⟨2, ![16, 16]⟩
abbrev S16 : Shape := ⟨1, ![16]⟩
abbrev S_ : Shape := ⟨0, ![]⟩

class Facts : Prop where
  bcast_S_S16x1024x14x14x16 : S_.BroadcastsInDim S16x1024x14x14x16 (![] : Fin 0 → Fin S16x1024x14x14x16.rank)
  reducesTo_S16x1024x14x14x16_S_d0_1_2_3_4 : S16x1024x14x14x16.ReducesTo [0, 1, 2, 3, 4] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S16x1024x14x14x16 .f32) (main_arg1 : FVec F S16x16 .f32) (main_arg2 : IVec S16 32) : IVec S_ 1 :=
  let main_v0 : FVec F S16x1024x14x14x16 .f32 := Host.absf main_arg0
  let main_cst : FVec F S_ .f32 := constant S_ .f32 0x7F800000#32
  let main_v1 : FVec F S16x1024x14x14x16 .f32 := broadcastInDim S16x1024x14x14x16 ![] bcast_S_S16x1024x14x14x16 main_cst
  let main_v2 : IVec S16x1024x14x14x16 1 := cmpf .olt main_v0 main_v1
  let main_c : IVec S_ 1 := constantI S_ 1 1#1
  let main_v3 : IVec S_ 1 := (fun x v => Host.reduce IntOp.andi x v reducesTo_S16x1024x14x14x16_S_d0_1_2_3_4 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  main_v8
-- ==== Kernel.lean ====
abbrev S16x1024x14x14x16 : Shape := ⟨5, ![16, 1024, 14, 14, 16]⟩
abbrev S16x16 : Shape := ⟨2, ![16, 16]⟩
abbrev S16 : Shape := ⟨1, ![16]⟩
abbrev S_ : Shape := ⟨0, ![]⟩
abbrev S16x1x16 : Shape := ⟨3, ![16, 1, 16]⟩
abbrev S16x1x1 : Shape := ⟨3, ![16, 1, 1]⟩
abbrev S1x128x14x14x16 : Shape := ⟨5, ![1, 128, 14, 14, 16]⟩
abbrev S1x1x16 : Shape := ⟨3, ![1, 1, 16]⟩
abbrev S1x1x1 : Shape := ⟨3, ![1, 1, 1]⟩
abbrev S1 : Shape := ⟨1, ![1]⟩
abbrev S1x128x1x1x1 : Shape := ⟨5, ![1, 128, 1, 1, 1]⟩
abbrev S1x128x14x16 : Shape := ⟨4, ![1, 128, 14, 16]⟩
abbrev S1x128x14x1x16 : Shape := ⟨5, ![1, 128, 14, 1, 16]⟩
abbrev S1x128x1x16 : Shape := ⟨4, ![1, 128, 1, 16]⟩
abbrev S1x128x1x1x16 : Shape := ⟨5, ![1, 128, 1, 1, 16]⟩
abbrev S1x1x1x16 : Shape := ⟨4, ![1, 1, 1, 16]⟩
abbrev S1x1x1x1x16 : Shape := ⟨5, ![1, 1, 1, 1, 16]⟩
abbrev S1x128x14x14 : Shape := ⟨4, ![1, 128, 14, 14]⟩
abbrev S1x128x14x14x1 : Shape := ⟨5, ![1, 128, 14, 14, 1]⟩
abbrev S1x128x14x1 : Shape := ⟨4, ![1, 128, 14, 1]⟩
abbrev S1x128x14x1x1 : Shape := ⟨5, ![1, 128, 14, 1, 1]⟩
abbrev S1x128x1x1 : Shape := ⟨4, ![1, 128, 1, 1]⟩
abbrev S1x1x1x1 : Shape := ⟨4, ![1, 1, 1, 1]⟩
abbrev S1x1x1x1x1 : Shape := ⟨5, ![1, 1, 1, 1, 1]⟩

abbrev nBuf : Space → Nat
  | .hbm => 72
  | .vmem => 8
  | .smem => 1
  | _ => 0

abbrev bufTy : (tb : Table) → Fin (tcTables nBuf tb) → BufTy
  | .hbm, ⟨0, _⟩ => ⟨S16x1024x14x14x16, .f32⟩
  | .hbm, ⟨1, _⟩ => ⟨S16x16, .f32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16x1x16, .f32⟩
  | .hbm, ⟨11, _⟩ => ⟨S16x1x16, .f32⟩
  | .hbm, ⟨12, _⟩ => ⟨S16x1x1, .f32⟩
  | .hbm, ⟨13, _⟩ => ⟨S16x16, .f32⟩
  | .hbm, ⟨14, _⟩ => ⟨S16x16, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S_, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S_, .f32⟩
  | .hbm, ⟨30, _⟩ => ⟨S16x16, .f32⟩
  | .hbm, ⟨31, _⟩ => ⟨S16x16, .f32⟩
  | .hbm, ⟨32, _⟩ => ⟨S16x16, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16x16, .f32⟩
  | .hbm, ⟨43, _⟩ => ⟨S16x16, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S16x16, .f32⟩
  | .hbm, ⟨49, _⟩ => ⟨S_, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S_, .f32⟩
  | .hbm, ⟨54, _⟩ => ⟨S16x16, .f32⟩
  | .hbm, ⟨55, _⟩ => ⟨S16x16, .f32⟩
  | .hbm, ⟨56, _⟩ => ⟨S16x16, .f32⟩
  | .hbm, ⟨57, _⟩ => ⟨S_, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .local _ .vmem, ⟨0, _⟩ => ⟨S1x128x14x14x16, .f32⟩
  | .local _ .vmem, ⟨1, _⟩ => ⟨S1x128x14x14x16, .f32⟩
  | .local _ .vmem, ⟨2, _⟩ => ⟨S1x1x16, .f32⟩
  | .local _ .vmem, ⟨3, _⟩ => ⟨S1x1x16, .f32⟩
  | .local _ .vmem, ⟨4, _⟩ => ⟨S1x1x16, .f32⟩
  | .local _ .vmem, ⟨5, _⟩ => ⟨S1x1x16, .f32⟩
  | .local _ .vmem, ⟨6, _⟩ => ⟨S1x1x1, .f32⟩
  | .local _ .vmem, ⟨7, _⟩ => ⟨S1x1x1, .f32⟩
  | .local _ .smem, ⟨0, _⟩ => ⟨S16, .i32⟩
  | _, _ => ⟨S16x1024x14x14x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_cst_13 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_cst_15 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x14x14x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16 : S_.BroadcastsInDim S16 (![] : Fin 0 → Fin S16.rank)
  inb_S1x1x16_S1x1x16_0_0_0 : ∀ a, (![0, 0, 0] : Fin 3 → Nat) a + S1x1x16.size a ≤ S1x1x16.size a
  h_S1x1x16 : 0 < S1x1x16.numel
  inb_S1x1x1_S1x1x1_0_0_0 : ∀ a, (![0, 0, 0] : Fin 3 → Nat) a + S1x1x1.size a ≤ S1x1x1.size a
  h_S1x1x1 : 0 < S1x1x1.numel
  numel1_S1 : S1.numel = 1
  iota_S1x128x1x1x1_d1_w32 : S1x128x1x1x1.Iotas .tc 32 [1]
  natLt_1_32 : 1 < 32
  inb_S1x128x14x14x16_S1x128x14x14x16_0_0_0_0_0 : ∀ a, (![0, 0, 0, 0, 0] : Fin 5 → Nat) a + S1x128x14x14x16.size a ≤ S1x128x14x14x16.size a
  h_S1x128x14x14x16 : 0 < S1x128x14x14x16.numel
  broadcasts_S1x128x1x1x1_S1x128x14x14x16 : S1x128x1x1x1.Broadcasts S1x128x14x14x16
  reduces_S1x128x14x14x16_S1x128x14x16 : S1x128x14x14x16.Reduces [3] S1x128x14x16
  shapeCasts_S1x128x14x16_S1x128x14x1x16 : S1x128x14x16.ShapeCasts S1x128x14x1x16
  reduces_S1x128x14x1x16_S1x128x1x16 : S1x128x14x1x16.Reduces [2] S1x128x1x16
  shapeCasts_S1x128x1x16_S1x128x1x1x16 : S1x128x1x16.ShapeCasts S1x128x1x1x16
  reduces_S1x128x1x1x16_S1x1x1x16 : S1x128x1x1x16.Reduces [1] S1x1x1x16
  shapeCasts_S1x1x1x16_S1x1x1x1x16 : S1x1x1x16.ShapeCasts S1x1x1x1x16
  shapeCasts_S1x1x16_S1x1x16 : S1x1x16.ShapeCasts S1x1x16
  shapeCasts_S1x1x1x1x16_S1x1x16 : S1x1x1x1x16.ShapeCasts S1x1x16
  reduces_S1x128x14x14x16_S1x128x14x14 : S1x128x14x14x16.Reduces [4] S1x128x14x14
  shapeCasts_S1x128x14x14_S1x128x14x14x1 : S1x128x14x14.ShapeCasts S1x128x14x14x1
  reduces_S1x128x14x14x1_S1x128x14x1 : S1x128x14x14x1.Reduces [3] S1x128x14x1
  shapeCasts_S1x128x14x1_S1x128x14x1x1 : S1x128x14x1.ShapeCasts S1x128x14x1x1
  reduces_S1x128x14x1x1_S1x128x1x1 : S1x128x14x1x1.Reduces [2] S1x128x1x1
  shapeCasts_S1x128x1x1_S1x128x1x1x1 : S1x128x1x1.ShapeCasts S1x128x1x1x1
  reduces_S1x128x1x1x1_S1x1x1x1 : S1x128x1x1x1.Reduces [1] S1x1x1x1
  shapeCasts_S1x1x1x1_S1x1x1x1x1 : S1x1x1x1.ShapeCasts S1x1x1x1x1
  shapeCasts_S1x1x1_S1x1x1 : S1x1x1.ShapeCasts S1x1x1
  shapeCasts_S1x1x1x1x1_S1x1x1 : S1x1x1x1x1.ShapeCasts S1x1x1
  shapeCasts_S16x1x16_S16x16 : S16x1x16.ShapeCasts S16x16
  shapeCasts_S16x1x1_S16 : S16x1x1.ShapeCasts S16
  reducesTo_S16_S_d0 : S16.ReducesTo [0] S_
  h_S_ : 0 < S_.numel
  bcast_S_S16x16 : S_.BroadcastsInDim S16x16 (![] : Fin 0 → Fin S16x16.rank)
  reducesTo_S16x16_S16_d1 : S16x16.ReducesTo [1] S16
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x14x14x16.size a ≤ S16x1024x14x14x16.size a
  hwx0_0 : ∀ i : grid0.Coords, EltTy.bits .f32 = 32 ∨ (Rect.block (s := S16x1024x14x14x16) S1x128x14x14x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16.size a ≤ S16x1x16.size a
  hwx0_1 : ∀ i : grid0.Coords, EltTy.bits .f32 = 32 ∨ (Rect.block (s := S16x1x16) S1x1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16.size a ≤ S16x1x16.size a
  hwx0_2 : ∀ i : grid0.Coords, EltTy.bits .f32 = 32 ∨ (Rect.block (s := S16x1x16) S1x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev spec0_0 : Pipeline.WinSpec sig grid0.rank :=
  Pipeline.WinSpec.ofSpec (Memref.whole main_arg0) S1x128x14x14x16.size reads0_0 false false 2 stage0_0 sem0_0 nbuf0_0 hstage0_0

abbrev spec0_1 : Pipeline.WinSpec sig grid0.rank :=
  Pipeline.WinSpec.ofSpec (Memref.whole main_v1_0) S1x1x16.size reads0_1 true false 2 stage0_1 sem0_1 nbuf0_1 hstage0_1

abbrev spec0_2 : Pipeline.WinSpec sig grid0.rank :=
  Pipeline.WinSpec.ofSpec (Memref.whole main_v1_1) S1x1x16.size reads0_2 true false 2 stage0_2 sem0_2 nbuf0_2 hstage0_2

abbrev spec0_3 : Pipeline.WinSpec sig grid0.rank :=
  Pipeline.WinSpec.ofSpec (Memref.whole main_v1_2) S1x1x1.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x1024x14x14x16 : Shape := ⟨5, ![16, 1024, 14, 14, 16]⟩
abbrev S16x16 : Shape := ⟨2, ![16, 16]⟩
abbrev S16 : Shape := ⟨1, ![16]⟩
abbrev S1024 : Shape := ⟨1, ![1024]⟩
abbrev S1x1024 : Shape := ⟨2, ![1, 1024]⟩
abbrev S16x1 : Shape := ⟨2, ![16, 1]⟩
abbrev S16x1024 : Shape := ⟨2, ![16, 1024]⟩
abbrev S16x1024x1x1x1 : Shape := ⟨5, ![16, 1024, 1, 1, 1]⟩
abbrev S_ : Shape := ⟨0, ![]⟩
abbrev S16x1024x14x14 : Shape := ⟨4, ![16, 1024, 14, 14]⟩

abbrev nBuf : Space → Nat
  | .hbm => 103
  | .vmem => 0
  | .smem => 0
  | _ => 0

abbrev bufTy : (tb : Table) → Fin (tcTables nBuf tb) → BufTy
  | .hbm, ⟨0, _⟩ => ⟨S16x1024x14x14x16, .f32⟩
  | .hbm, ⟨1, _⟩ => ⟨S16x16, .f32⟩
  | .hbm, ⟨2, _⟩ => ⟨S16, .i32⟩
  | .hbm, ⟨3, _⟩ => ⟨S1024, .i32⟩
  | .hbm, ⟨4, _⟩ => ⟨S1x1024, .i32⟩
  | .hbm, ⟨5, _⟩ => ⟨S16x1, .i32⟩
  | .hbm, ⟨6, _⟩ => ⟨S16x1024, .i32⟩
  | .hbm, ⟨7, _⟩ => ⟨S16x1024, .i32⟩
  | .hbm, ⟨8, _⟩ => ⟨S16x1024, .i1⟩
  | .hbm, ⟨9, _⟩ => ⟨S16x1024, .f32⟩
  | .hbm, ⟨10, _⟩ => ⟨S16x1024x1x1x1, .f32⟩
  | .hbm, ⟨11, _⟩ => ⟨S16x1024x14x14x16, .f32⟩
  | .hbm, ⟨12, _⟩ => ⟨S16x1024x14x14x16, .f32⟩
  | .hbm, ⟨13, _⟩ => ⟨S_, .f32⟩
  | .hbm, ⟨14, _⟩ => ⟨S16x1024x1x1x1, .f32⟩
  | .hbm, ⟨15, _⟩ => ⟨S16x1024x1x1x1, .f32⟩
  | .hbm, ⟨16, _⟩ => ⟨S16x1024x14x14x16, .f32⟩
  | .hbm, ⟨17, _⟩ => ⟨S16x1024x14x14x16, .f32⟩
  | .hbm, ⟨18, _⟩ => ⟨S_, .f32⟩
  | .hbm, ⟨19, _⟩ => ⟨S16x16, .f32⟩
  | .hbm, ⟨20, _⟩ => ⟨S_, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16x16, .f32⟩
  | .hbm, ⟨30, _⟩ => ⟨S16x16, .f32⟩
  | .hbm, ⟨31, _⟩ => ⟨S16x16, .f32⟩
  | .hbm, ⟨32, _⟩ => ⟨S_, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16x16, .f32⟩
  | .hbm, ⟨46, _⟩ => ⟨S16x16, .f32⟩
  | .hbm, ⟨47, _⟩ => ⟨S16x16, .f32⟩
  | .hbm, ⟨48, _⟩ => ⟨S_, .f32⟩
  | .hbm, ⟨49, _⟩ => ⟨S16x16, .f32⟩
  | .hbm, ⟨50, _⟩ => ⟨S16x16, .f32⟩
  | .hbm, ⟨51, _⟩ => ⟨S16x16, .f32⟩
  | .hbm, ⟨52, _⟩ => ⟨S_, .f32⟩
  | .hbm, ⟨53, _⟩ => ⟨S16x16, .f32⟩
  | .hbm, ⟨54, _⟩ => ⟨S16x16, .f32⟩
  | .hbm, ⟨55, _⟩ => ⟨S16x16, .f32⟩
  | .hbm, ⟨56, _⟩ => ⟨S_, .f32⟩
  | .hbm, ⟨57, _⟩ => ⟨S16x16, .f32⟩
  | .hbm, ⟨58, _⟩ => ⟨S16x16, .f32⟩
  | .hbm, ⟨59, _⟩ => ⟨S16x16, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16x1024x1x1x1, .f32⟩
  | .hbm, ⟨70, _⟩ => ⟨S16x1024x1x1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16x1024x1x1x1, .f32⟩
  | .hbm, ⟨75, _⟩ => ⟨S16x1024x1x1x1, .f32⟩
  | .hbm, ⟨76, _⟩ => ⟨S_, .f32⟩
  | .hbm, ⟨77, _⟩ => ⟨S16x1024x1x1x1, .f32⟩
  | .hbm, ⟨78, _⟩ => ⟨S16x1024x1x1x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x1024x14x14x16, .f32⟩
  | .hbm, ⟨83, _⟩ => ⟨S16x1024x14x14x16, .f32⟩
  | .hbm, ⟨84, _⟩ => ⟨S_, .f32⟩
  | .hbm, ⟨85, _⟩ => ⟨S16x1024x14x14x16, .f32⟩
  | .hbm, ⟨86, _⟩ => ⟨S16x1024x14x14x16, .f32⟩
  | .hbm, ⟨87, _⟩ => ⟨S16x1024x14x14x16, .f32⟩
  | .hbm, ⟨88, _⟩ => ⟨S16x1024x14x14x16, .f32⟩
  | .hbm, ⟨89, _⟩ => ⟨S16x1024x14x14x16, .f32⟩
  | .hbm, ⟨90, _⟩ => ⟨S16x1024x14x14x16, .f32⟩
  | .hbm, ⟨91, _⟩ => ⟨S16x1024x14x14x16, .f32⟩
  | .hbm, ⟨92, _⟩ => ⟨S_, .f32⟩
  | .hbm, ⟨93, _⟩ => ⟨S16x1024x14x14, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S16, .f32⟩
  | _, _ => ⟨S16x1024x14x14x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_cst_17 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v51 : Ref sig .tc := ⟨.hbm, 78, rfl⟩
abbrev main_cst_18 : Ref sig .tc := ⟨.hbm, 79, rfl⟩
abbrev main_cst_19 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_20 : Ref sig .tc := ⟨.hbm, 92, rfl⟩
abbrev main_v58 : Ref sig .tc := ⟨.hbm, 93, rfl⟩
abbrev main_cst_21 : Ref sig .tc := ⟨.hbm, 94, rfl⟩
abbrev main_v59 : Ref sig .tc := ⟨.hbm, 95, rfl⟩
abbrev main_cst_22 : Ref sig .tc := ⟨.hbm, 96, rfl⟩
abbrev main_v60 : Ref sig .tc := ⟨.hbm, 97, rfl⟩
abbrev main_cst_23 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S16x1024_S16x1024x1x1x1_0_1 : S16x1024.BroadcastsInDim S16x1024x1x1x1 (![0, 1] : Fin 2 → Fin S16x1024x1x1x1.rank)
  bcast_S16x1024x1x1x1_S16x1024x14x14x16_0_1_2_3_4 : S16x1024x1x1x1.BroadcastsInDim S16x1024x14x14x16 (![0, 1, 2, 3, 4] : Fin 5 → Fin S16x1024x14x14x16.rank)
  bcast_S_S16x1024x1x1x1 : S_.BroadcastsInDim S16x1024x1x1x1 (![] : Fin 0 → Fin S16x1024x1x1x1.rank)
  reducesTo_S16x1024x14x14x16_S16x16_d1_2_3 : S16x1024x14x14x16.ReducesTo [1, 2, 3] S16x16
  h_S_ : 0 < S_.numel
  bcast_S_S16x16 : S_.BroadcastsInDim S16x16 (![] : Fin 0 → Fin S16x16.rank)
  reducesTo_S16x16_S16_d1 : S16x16.ReducesTo [1] S16
  bcast_S_S16 : S_.BroadcastsInDim S16 (![] : Fin 0 → Fin S16.rank)
  bcast_S_S16x1024x14x14x16 : S_.BroadcastsInDim S16x1024x14x14x16 (![] : Fin 0 → Fin S16x1024x14x14x16.rank)
  reducesTo_S16x1024x14x14x16_S16x1024x14x14_d4 : S16x1024x14x14x16.ReducesTo [4] S16x1024x14x14
  reducesTo_S16x1024x14x14_S_d0_1_2_3 : S16x1024x14x14.ReducesTo [0, 1, 2, 3] S_

variable [Facts₀]

class Facts : Prop extends Facts₀ where

variable [Facts]
-- ==== Proof.Pieces.lean ====
/-
  What one run of the kernel body leaves in each of its three running sums, as the body's arithmetic applied to
  what it read: at the first tile of a row (the sums are reset first) the update of the zero block, at a later tile
  the update of what the tile before left. The row's length word is the word the body loads from the table at the
  row's number.
-/
import proofs.«409814_j1623497638139_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The length word the body loads at grid point `i`: the table's word at the row's number. -/
def tword (c : Dev nD) (i : grid0.Coords) (xt0 : TbBuf0 (F := F) c tbM0_0) : Elt F .i32 :=
  View.ld (View.read (Elt F) (View.whole main_v0) xt0)
    (Rect.unit ![BitVec.toNat (Scalar.indexCast (BitVec.ofNat 32 (i 0).val))] ![1] (k0_off1_inb i)) (Shape.Idx.first (show 0 < S1.numel by decide))

/-- A later tile: the active sum's update of what the tile before left. -/
theorem out_B_1 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : ¬cond0_0 i)
    (x0 : Vec F S1x128x14x14x16 .f32) (xt0 : TbBuf0 (F := F) c tbM0_0) (xo1 xo2 : Vec F S1x1x16 .f32) (xo3 : Vec F S1x1x1 .f32) :
    out0_B_1 c i a3 h3 a4 h4 a5 h5 a6 h6 hc x0 xt0 xo1 xo2 xo3 = k0_pay8 i (tword c i xt0) x0 xo1 := by
  unfold out0_B_1
  rw [View.read_writes_eq_canon _ _ _ (cover0_B_1 c i a3 h3 a4 h4 a5 h5 a6 h6 hc x0 xt0 xo1 xo2 xo3)]
  unfold kernelRun0_B tword
  dsimp only
  sl_unfold_words
  rw [View.canon_unit_zero hz3]
  simp only [View.readAt_eq_ld, h3.read_unread, h4.read_unread, View.ld_unit_zero (S := S1x1x16) hz3, View.ld_unit_zero (S := S1x128x14x14x16) hz5]

/-- A later tile: the whole sum's update. -/
theorem out_B_2 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : ¬cond0_0 i)
    (x0 : Vec F S1x128x14x14x16 .f32) (xt0 : TbBuf0 (F := F) c tbM0_0) (xo1 xo2 : Vec F S1x1x16 .f32) (xo3 : Vec F S1x1x1 .f32) :
    out0_B_2 c i a3 h3 a4 h4 a5 h5 a6 h6 hc x0 xt0 xo1 xo2 xo3 = k0_pay1 (k0_pay9 x0) xo2 := by
  unfold out0_B_2
  rw [View.read_writes_eq_canon _ _ _ (cover0_B_2 c i a3 h3 a4 h4 a5 h5 a6 h6 hc x0 xt0 xo1 xo2 xo3)]
  unfold kernelRun0_B
  dsimp only
  sl_unfold_words
  rw [View.canon_unit_zero hz3]
  simp only [View.readAt_eq_ld, h3.read_unread, h5.read_unread, View.ld_unit_zero (S := S1x1x16) hz3, View.ld_unit_zero (S := S1x128x14x14x16) hz5]

/-- A later tile: the divergence's update. -/
theorem out_B_3 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : ¬cond0_0 i)
    (x0 : Vec F S1x128x14x14x16 .f32) (xt0 : TbBuf0 (F := F) c tbM0_0) (xo1 xo2 : Vec F S1x1x16 .f32) (xo3 : Vec F S1x1x1 .f32) :
    out0_B_3 c i a3 h3 a4 h4 a5 h5 a6 h6 hc x0 xt0 xo1 xo2 xo3
      = k0_pay2 (k0_pay6 i (tword c i xt0)) (k0_pay7 i (tword c i xt0) x0) xo3 := by
  unfold out0_B_3
  rw [View.read_writes_eq_canon _ _ _ (cover0_B_3 c i a3 h3 a4 h4 a5 h5 a6 h6 hc x0 xt0 xo1 xo2 xo3)]
  unfold kernelRun0_B tword
  dsimp only
  sl_unfold_words
  rw [View.canon_unit_zero hz3]
  simp only [View.readAt_eq_ld, h3.read_unread, h6.read_unread, View.ld_unit_zero (S := S1x1x1) hz3, View.ld_unit_zero (S := S1x128x14x14x16) hz5]

/-- The first tile of a row: the active sum's update of the zero block. -/
theorem out_A_1 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : cond0_0 i)
    (x0 : Vec F S1x128x14x14x16 .f32) (xt0 : TbBuf0 (F := F) c tbM0_0) :
    out0_A_1 c i a3 h3 a4 h4 a5 h5 a6 h6 hc x0 xt0 = k0_pay8 i (tword c i xt0) x0 (k0_pay3 (F := F)) := by
  unfold out0_A_1
  rw [View.read_writes_eq_canon _ _ _ (cover0_A_1 c i a3 h3 a4 h4 a5 h5 a6 h6 hc x0 xt0)]
  unfold kernelRun0_A tword
  dsimp only
  sl_unfold_words
  rw [View.canon_cons_unit_zero (S := S1x1x16) hz3, View.readCov_unit_zero (S := S1x1x16) _ hz3]
  simp only [View.readAt_eq_ld, h3.read_unread, View.ld_unit_zero (S := S1x1x16) hz3, View.ld_unit_zero (S := S1x128x14x14x16) hz5]

/-- The first tile of a row: the whole sum's update of the zero block. -/
theorem out_A_2 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : cond0_0 i)
    (x0 : Vec F S1x128x14x14x16 .f32) (xt0 : TbBuf0 (F := F) c tbM0_0) :
    out0_A_2 c i a3 h3 a4 h4 a5 h5 a6 h6 hc x0 xt0 = k0_pay1 (k0_pay9 x0) (k0_pay4 (F := F)) := by
  unfold out0_A_2
  rw [View.read_writes_eq_canon _ _ _ (cover0_A_2 c i a3 h3 a4 h4 a5 h5 a6 h6 hc x0 xt0)]
  unfold kernelRun0_A
  dsimp only
  sl_unfold_words
  rw [View.canon_cons_unit_zero (S := S1x1x16) hz3, View.readCov_unit_zero (S := S1x1x16) _ hz3]
  simp only [View.readAt_eq_ld, h3.read_unread, View.ld_unit_zero (S := S1x1x16) hz3, View.ld_unit_zero (S := S1x128x14x14x16) hz5]

/-- The first tile of a row: the divergence's update of the zero block. -/
theorem out_A_3 (c : Dev nD) (i : grid0.Coords) (a3 : Memref sig .tc .vmem S1x128x14x14x16 .f32) (h3 : a3.IsWhole)
    (a4 : Memref sig .tc .vmem S1x1x16 .f32) (h4 : a4.IsWhole) (a5 : Memref sig .tc .vmem S1x1x16 .f32) (h5 : a5.IsWhole)
    (a6 : Memref sig .tc .vmem S1x1x1 .f32) (h6 : a6.IsWhole) (hc : cond0_0 i)
    (x0 : Vec F S1x128x14x14x16 .f32) (xt0 : TbBuf0 (F := F) c tbM0_0) :
    out0_A_3 c i a3 h3 a4 h4 a5 h5 a6 h6 hc x0 xt0
      = k0_pay2 (k0_pay6 i (tword c i xt0)) (k0_pay7 i (tword c i xt0) x0) (k0_pay5 (F := F)) := by
  unfold out0_A_3
  rw [View.read_writes_eq_canon _ _ _ (cover0_A_3 c i a3 h3 a4 h4 a5 h5 a6 h6 hc x0 xt0)]
  unfold kernelRun0_A tword
  dsimp only
  sl_unfold_words
  rw [View.canon_cons_unit_zero (S := S1x1x1) hz3, View.readCov_unit_zero (S := S1x1x1) _ hz3]
  simp only [View.readAt_eq_ld, h3.read_unread, View.ld_unit_zero (S := S1x1x1) hz3, View.ld_unit_zero (S := S1x128x14x14x16) hz5]

end Cert.KernelIdeal.Val

end
-- ==== Proof.Spec.lean ====
/-
  The mathematics both programs compute, stated once over the extended reals.

  For a batch row `b`, a time step `t` is ACTIVE when `t < length b` (signed 32-bit compare of the
  step's number against the row's length word); `msk` is the indicator of that, as an extended real.
  Over the clips `x[b, t, h, w, c]`:
    act b c = ∑ₜ ∑ₕ ∑_w x · msk          (the active mass per channel)
    tot b c = ∑ₜ ∑ₕ ∑_w x                (the whole mass per channel)
    blk b c = ∑ₜ ∑ₕ ∑_w x · (1 - msk)    (the blank mass per channel)
    klb b   = ∑ₜ ∑ₕ ∑_w ∑_c yt(msk) · log (yt(msk) / yp(x · msk))   (the divergence of the clipped uniform
                                          target from the clipped active prediction)
  and the loss per row is `tail`: the mean Huber loss of `act - count`, plus that of `blk - 0`, plus the
  divergence summed over all rows, divided by the number of (b, t, h, w) positions and scaled.
-/
import Idealize.ShloMosaic.PureOps.Ideal
import Idealize.ShloMosaic.PureOps.Ideal.Laws
import Idealize.ShloMosaic.Lib.ValueIdx

noncomputable section

namespace TTVLoss

open Idealize.ShloMosaic Idealize.ShloMosaic.ValueIdx

abbrev SX : Shape := ⟨5, ![16, 1024, 14, 14, 16]⟩
abbrev SL : Shape := ⟨1, ![16]⟩
abbrev T16x16 : Shape := ⟨2, ![16, 16]⟩
abbrev T16 : Shape := ⟨1, ![16]⟩
abbrev T0 : Shape := ⟨0, ![]⟩

/-- The indicator of "step `t` is before the length word `L`" (signed compare of 32-bit words). -/
def msk (L : BitVec 32) (t : ℕ) : EReal := if (BitVec.ofNat 32 t).slt L then 1 else 0

/-- The clipped target: `clip (m · (1/14 as f32), ε, 1)`. -/
def yt (m : EReal) : EReal :=
  min (Ideal.ofBits .f32 0x3F800000#32) (max (Ideal.ofBits .f32 0x33D6BF95#32) (m * Ideal.ofBits .f32 0x3D924925#32))

/-- The clipped prediction: `clip (a, ε, 1)`. -/
def yp (a : EReal) : EReal :=
  min (Ideal.ofBits .f32 0x3F800000#32) (max (Ideal.ofBits .f32 0x33D6BF95#32) a)

/-- One element of the divergence: `yt · log (yt / yp)`. -/
def klE (m a : EReal) : EReal := yt m * Ideal.log (Ideal.div (yt m) (yp a))

variable (X : SX.Idx → EReal) (L : SL.Idx → BitVec 32)

def act (b c : Fin 16) : EReal := ∑ t : Fin 1024, ∑ h : Fin 14, ∑ w : Fin 14, X (ix5 b t h w c) * msk (L (ix1 b)) t.val
def tot (b c : Fin 16) : EReal := ∑ t : Fin 1024, ∑ h : Fin 14, ∑ w : Fin 14, X (ix5 b t h w c)
def blk (b c : Fin 16) : EReal := ∑ t : Fin 1024, ∑ h : Fin 14, ∑ w : Fin 14, X (ix5 b t h w c) * (1 - msk (L (ix1 b)) t.val)
def klb (b : Fin 16) : EReal :=
  ∑ t : Fin 1024, ∑ h : Fin 14, ∑ w : Fin 14, ∑ c : Fin 16, klE (msk (L (ix1 b)) t.val) (X (ix5 b t h w c) * msk (L (ix1 b)) t.val)

/-- The clips read at a time step given as a natural number (zero past the last step): what a time tile
    of 128 steps starting at `128·s` reads at its step `u` is `Xn X b (128·s + u)`. -/
def Xn (b : Fin 16) (t : ℕ) (h w : Fin 14) (c : Fin 16) : EReal := if ht : t < 1024 then X (ix5 b ⟨t, ht⟩ h w c) else 0

/-- Time tile `s`'s share (steps `128·s … 128·s + 127`) of the active mass, of the whole mass, of the divergence. -/
def tileAct (b : Fin 16) (s : ℕ) (c : Fin 16) : EReal :=
  ∑ u : Fin 128, ∑ h : Fin 14, ∑ w : Fin 14, Xn X b (128 * s + u.val) h w c * msk (L (ix1 b)) (128 * s + u.val)
def tileTot (b : Fin 16) (s : ℕ) (c : Fin 16) : EReal :=
  ∑ u : Fin 128, ∑ h : Fin 14, ∑ w : Fin 14, Xn X b (128 * s + u.val) h w c
def tileKl (b : Fin 16) (s : ℕ) : EReal :=
  ∑ u : Fin 128, ∑ h : Fin 14, ∑ w : Fin 14, ∑ c : Fin 16,
    klE (msk (L (ix1 b)) (128 * s + u.val)) (Xn X b (128 * s + u.val) h w c * msk (L (ix1 b)) (128 * s + u.val))

/-- The mean over the 16 channels of the Huber loss (δ = 1) of a difference `d`:
    with `e = |d|`, `q = min e 1`: `(∑_c ½·q·q + 1·(e - q)) / 16 · 1`. -/
def huberMean (d : FVec Ideal T16x16 .f32) : FVec Ideal T16 .f32 :=
  mulf
    (Host.divf
      (Host.reduceAdd
        (addf
          (mulf (mulf (broadcastInDim T16x16 ![] (by decide) (constant T0 .f32 0x3F000000#32))
              (minimumf (Host.absf d) (broadcastInDim T16x16 ![] (by decide) (constant T0 .f32 0x3F800000#32))))
            (minimumf (Host.absf d) (broadcastInDim T16x16 ![] (by decide) (constant T0 .f32 0x3F800000#32))))
          (mulf (broadcastInDim T16x16 ![] (by decide) (constant T0 .f32 0x3F800000#32))
            (subf (Host.absf d)
              (minimumf (Host.absf d) (broadcastInDim T16x16 ![] (by decide) (constant T0 .f32 0x3F800000#32))))))
        (constant T0 .f32 0x00000000#32) (by decide : T16x16.ReducesTo [1] T16) (by decide))
      (broadcastInDim T16 ![] (by decide) (constant T0 .f32 0x41800000#32)))
    (broadcastInDim T16 ![] (by decide) (constant T0 .f32 0x3F800000#32))

/-- The loss per batch row from the active mass `A`, the blank mass `B`, the total divergence `K` and the counts `C`. -/
def tail (A B : FVec Ideal T16x16 .f32) (K : FVec Ideal T0 .f32) (C : FVec Ideal T16x16 .f32) : FVec Ideal T16 .f32 :=
  addf
    (addf (huberMean (subf A C))
      (huberMean (subf B (broadcastInDim T16x16 ![] (by decide) (constant T0 .f32 0x00000000#32)))))
    (broadcastInDim T16 ![] (by decide)
      (mulf (Host.divf K (constant T0 .f32 0x4A440000#32)) (constant T0 .f32 0x3DCCCCCD#32)))

end TTVLoss

end
-- ==== Proof.Mask.lean ====
/-
  The step indicator as each program computes it. The reference compares the step's number with the row's length
  word and converts the bit; the kernel compares (the step's offset inside its tile + 128 · the tile's number) with
  the length word clamped to [0, 1024], widens the bit to a word and converts that. For a step below 1024 the
  two agree: a step is below the clamped length exactly when it is below the length.
-/
import proofs.«409814_j1623497638139_2_alg».proof.Proof.Spec
import Idealize.ShloMosaic.Lib.StableHlo.Predicate

noncomputable section

namespace TTVLoss

open Idealize.ShloMosaic

/-- The length word clamped to [0, 1024]: `min 1024 (max 0 l)` (signed). -/
def clipL (l : BitVec 32) : BitVec 32 := IntOp.minsi 1024#32 (IntOp.maxsi 0#32 l)

/-- The kernel's indicator at step `u` of tile `s` against the word `v`: the compare bit, widened to a word, read signed. -/
def kmsk (s : ℕ) (v : BitVec 32) (u : ℕ) : EReal :=
  ((((IntOp.cmpi .slt (IntOp.addi (BitVec.ofNat 32 u) (Scalar.muli (BitVec.ofNat 32 s) 128#32)) v).setWidth 32).toInt : ℝ) : EReal)

/-- The kernel's step word: with `s < 8` and `u < 128` the sum `u + s · 128` does not wrap; it is the word of `128·s + u`. -/
private theorem step_word (s u : ℕ) (hs : s < 8) (hu : u < 128) :
    IntOp.addi (BitVec.ofNat 32 u) (Scalar.muli (BitVec.ofNat 32 s) 128#32) = BitVec.ofNat 32 (128 * s + u) := by
  apply BitVec.eq_of_toNat_eq
  simp only [IntOp.addi, Scalar.muli, IntOp.muli, BitVec.toNat_add, BitVec.toNat_mul, BitVec.toNat_ofNat]
  omega

/-- The clamped length word read signed: `min 1024 (max 0 l)` over the integers. -/
private theorem toInt_clipL (l : BitVec 32) : (clipL l).toInt = min 1024 (max 0 l.toInt) := by
  have h0 : (0#32 : BitVec 32).toInt = 0 := by decide
  have h1024 : (1024#32 : BitVec 32).toInt = 1024 := by decide
  unfold clipL IntOp.minsi IntOp.maxsi
  split_ifs with h1 h2 h2 <;> simp only [BitVec.slt, decide_eq_true_eq, h0, h1024, not_lt] at * <;> omega

/-- A step below 1024 is before the clamped length exactly when it is before the length (signed):
    a negative length has no step before it either way; a length in [0, 1024] is its own clamp; a length
    above 1024 and its clamp 1024 both have every step below 1024 before them. -/
private theorem slt_clipL (n : ℕ) (hn : n < 1024) (l : BitVec 32) :
    (BitVec.ofNat 32 n).slt (clipL l) = (BitVec.ofNat 32 n).slt l := by
  have hn' : (BitVec.ofNat 32 n).toInt = n := StableHlo.Predicate.toInt_ofNat_small n (by omega)
  rw [Bool.eq_iff_iff]
  simp only [BitVec.slt, decide_eq_true_eq, hn', toInt_clipL]
  omega

/-- Against the clamped length word, the kernel's indicator is the indicator of "step `128·s + u` is before the length". -/
theorem kmsk_clip (s u : ℕ) (hs : s < 8) (hu : u < 128) (l : BitVec 32) : kmsk s (clipL l) u = msk l (128 * s + u) := by
  unfold kmsk msk
  rw [step_word s u hs hu]
  simp only [IntOp.cmpi]
  rw [slt_clipL _ (by omega) l]
  cases (BitVec.ofNat 32 (128 * s + u)).slt l
  · simp [BitVec.ofBool]
  · simp [BitVec.ofBool]

/-- The reference's indicator: the compare bit read unsigned. -/
theorem msk_uitofp (t : ℕ) (l : BitVec 32) : (((IntOp.cmpi .slt (BitVec.ofNat 32 t) l).toNat : ℝ) : EReal) = msk l t := by
  unfold msk
  simp only [IntOp.cmpi]
  cases (BitVec.ofNat 32 t).slt l
  · simp [BitVec.ofBool]
  · simp [BitVec.ofBool]

end TTVLoss

end
-- ==== Proof.Table.lean ====
/-
  The row's length word as the kernel finds it: the table the host computes before the launch is the length words
  clamped to [0, 1024], and the body at grid point t = 8·b + s loads the word of row b.
-/
import proofs.«409814_j1623497638139_2_alg».proof.Proof.Pieces
import proofs.«409814_j1623497638139_2_alg».proof.Proof.Mask
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen

variable {F : FTy → Type} [FloatOps F]
variable (m : (ℓ : Loc nD τ sig) → Buf (Elt F) ℓ)

/-- The grid point's coordinates: row t / 8, tile t % 8. -/
theorem coords_val : ∀ t : Fin grid0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The table holds the clamped length words. -/
theorem tbl_apply (b : Fin 16) :
    (tbl m 0 : S16.Idx → BitVec 32) (ix1 b) = TTVLoss.clipL ((m (((0 : Dev nD) : Thread nD τ).loc main_arg2) : S16.Idx → BitVec 32) (ix1 b)) := by
  have e : (tbl m 0 : S16.Idx → BitVec 32)
      = minsi (broadcastInDim S16 ![] bcast_S_S16 (id (constantI S_ 32 1024#32)))
          (maxsi (broadcastInDim S16 ![] bcast_S_S16 (id (constantI S_ 32 0#32))) (m (((0 : Dev nD) : Thread nD τ).loc main_arg2))) := by
    unfold tbl
    show V m 0 main_v0 = _
    dsimp only [Gen.V, Gen.V0]
    simp only [Gen.hostOps0, Gen.hostOps0_1, List.flatten_cons, List.flatten_nil, List.append_nil, List.cons_append, List.nil_append]
    after_results
    rfl
  rw [e]
  rfl

/-- The word the body loads at grid point `t` is the table's word of row t / 8. -/
theorem tword_eq (c : Dev nD) (t : Fin grid0.N) (xt0 : TbBuf0 (F := F) c tbM0_0) (hb : t.val / 8 < 16) :
    tword c (grid0.coords t) xt0 = (xt0 : S16.Idx → Elt F .i32) (ix1 ⟨t.val / 8, hb⟩) := by
  unfold tword
  rw [View.read_whole]
  show xt0 _ = xt0 _
  congr 1
  funext a
  apply Fin.ext
  match a with
  | ⟨0, _⟩ =>
    show BitVec.toNat (Scalar.indexCast (BitVec.ofNat 32 ((grid0.coords t) 0).val)) + 1 * 0 = t.val / 8
    rw [(coords_val t).1]
    have h32 : t.val / 8 < 2 ^ 32 := by omega
    simp only [Scalar.indexCast, BitVec.toNat_ofNat, BitVec.toNat_setWidth, Nat.mod_eq_of_lt h32]
    omega

end Cert.KernelIdeal.Val

end
-- ==== Proof.Tile.lean ====
/-
  What one grid point reads. Grid point t = 8·b + s runs tile s of row b: step u of the input block is step
  128·s + u of row b's clips, and the word the body loads from the table is row b's length word clamped to [0, 1024],
  against which the body's step indicator is the indicator of "step 128·s + u is before the row's length".
-/
import proofs.«409814_j1623497638139_2_alg».proof.Proof.Pieces
import proofs.«409814_j1623497638139_2_alg».proof.Proof.Table
import proofs.«409814_j1623497638139_2_alg».proof.Proof.Mask
import proofs.«409814_j1623497638139_2_alg».proof.Proof.Spec

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen

variable (m : (ℓ : Loc nD τ sig) → Buf (Elt Ideal) ℓ)

/-- The clips and the length words as launched (the program runs on one device). -/
abbrev Xc : TTVLoss.SX.Idx → EReal := m (((0 : Dev nD) : Thread nD τ).loc main_arg0)
abbrev Lc : TTVLoss.SL.Idx → BitVec 32 := m (((0 : Dev nD) : Thread nD τ).loc main_arg2)

theorem N_eq (hO : Ok m) : (cfgM m hO).N = 128 := N_0

/-- The row of grid point `n`. -/
abbrev rowOf (n : ℕ) (hn : n < 128) : Fin 16 := ⟨n / 8, by omega⟩

/-- The input tile at point `t`, at its literal type. -/
abbrev xblk (hO : Ok m) (c : Dev nD) (t : Fin (cfgM m hO).N) : Vec Ideal S1x128x14x14x16 .f32 := iblk m hO c 0 t

/-- The input window's index map over the grid: row t / 8, tile t % 8, and 0 on the three inner axes. -/
private theorem idx0 : ∀ t : Fin grid0.N, cc0_transform_0 (grid0.coords t) 0 = t.val / 8 ∧ cc0_transform_0 (grid0.coords t) 1 = t.val % 8
    ∧ cc0_transform_0 (grid0.coords t) 2 = 0 ∧ cc0_transform_0 (grid0.coords t) 3 = 0 ∧ cc0_transform_0 (grid0.coords t) 4 = 0 :=
  (by decide +kernel : ∀ t : Fin grid0.N, cc0_transform_0 (grid0.coords t) 0 = t.val / 8 ∧ cc0_transform_0 (grid0.coords t) 1 = t.val % 8
    ∧ cc0_transform_0 (grid0.coords t) 2 = 0 ∧ cc0_transform_0 (grid0.coords t) 3 = 0 ∧ cc0_transform_0 (grid0.coords t) 4 = 0)

/-- The tile read at point t = 8·b + s: step u of the block is step 128·s + u of row b. -/
theorem xblk_apply (hO : Ok m) (c : Dev nD) (t : Fin (cfgM m hO).N) (u : Fin 128) (h w : Fin 14) (ch : Fin 16) :
    xblk m hO c t (ix5 0 u h w ch)
      = TTVLoss.Xn (Xc m) (rowOf t.val (lt_of_lt_of_eq t.isLt (N_eq m hO))) (128 * (t.val % 8) + u.val) h w ch := by
  obtain rfl : c = 0 := Subsingleton.elim _ _
  have hN : t.val < 128 := lt_of_lt_of_eq t.isLt (N_eq m hO)
  obtain ⟨e0, e1, e2, e3, e4⟩ := idx0 t
  have ht : 128 * (t.val % 8) + u.val < 1024 := by have := u.isLt; omega
  unfold TTVLoss.Xn
  rw [dif_pos ht]
  unfold xblk iblk
  show V m 0 main_arg0 ((((cfgM m hO).win 0).blk t).view.emb (ix5 0 u h w ch)) = _
  rw [V_main_arg0]
  congr 1
  funext a
  apply Fin.ext
  match a with
  | ⟨0, _⟩ => show cc0_transform_0 (grid0.coords t) 0 * 1 + 1 * 0 = t.val / 8; rw [e0]; omega
  | ⟨1, _⟩ => show cc0_transform_0 (grid0.coords t) 1 * 128 + 1 * u.val = 128 * (t.val % 8) + u.val; rw [e1]; omega
  | ⟨2, _⟩ => show cc0_transform_0 (grid0.coords t) 2 * 14 + 1 * h.val = h.val; rw [e2]; omega
  | ⟨3, _⟩ => show cc0_transform_0 (grid0.coords t) 3 * 14 + 1 * w.val = w.val; rw [e3]; omega
  | ⟨4, _⟩ => show cc0_transform_0 (grid0.coords t) 4 * 16 + 1 * ch.val = ch.val; rw [e4]; omega

/-- The length word the body loads at point t, as the indicator sees it. -/
theorem kmsk_point (hO : Ok m) (c : Dev nD) (t : Fin (cfgM m hO).N) (u : Fin 128) :
    TTVLoss.kmsk ((grid0.coords t) 1).val (tword c (grid0.coords t) (tbl m 0)) u.val
      = TTVLoss.msk (Lc m (ix1 (rowOf t.val (lt_of_lt_of_eq t.isLt (N_eq m hO))))) (128 * (t.val % 8) + u.val) := by
  have hN : t.val < 128 := lt_of_lt_of_eq t.isLt (N_eq m hO)
  have hb : t.val / 8 < 16 := by omega
  rw [(coords_val t).2, tword_eq c t (tbl m 0) hb]
  refine (congrArg (fun v => TTVLoss.kmsk (t.val % 8) v u.val) (tbl_apply m ⟨t.val / 8, hb⟩)).trans ?_
  exact TTVLoss.kmsk_clip (t.val % 8) u.val (by omega) u.isLt _

end Cert.KernelIdeal.Val

end
-- ==== Proof.Payload.lean ====
/-
  The kernel body's arithmetic read at an index, over the extended reals. At grid point (b, s) the body holds the
  tile `x` of 128 steps, the row's (clamped) length word `v`, and the three running sums; what it stores is
    the active sum   + ∑ᵤ ∑ₕ ∑_w x[0,u,h,w,c] · (step u of tile s is before v)
    the whole sum    + ∑ᵤ ∑ₕ ∑_w x[0,u,h,w,c]
    the divergence   + ∑ᵤ ∑ₕ ∑_w ∑_c yt(msk) · log (yt(msk) / yp(x · msk))
  each lane sum a nest of one-axis sums (width, then height, then step; for the divergence the channel first).
-/
import proofs.«409814_j1623497638139_2_alg».proof.Proof.Gen.KernelIdeal.Skeleton
import proofs.«409814_j1623497638139_2_alg».proof.Proof.Spec
import proofs.«409814_j1623497638139_2_alg».proof.Proof.Mask
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen

/-! ### The one-axis sums and the unit-axis casts at the literal shapes -/

private theorem sumW (src : FVec Ideal S1x128x14x14x16 .f32) (hr : S1x128x14x14x16.Reduces [3] S1x128x14x16)
    (hφ : FKind.Formats .f32) (hacc : (0x00000000#32 : BitVec 32) = FKind.add.neutral .f32 hφ)
    (u : Fin 128) (h : Fin 14) (c : Fin 16) :
    multiReduction .add [3] S1x128x14x16 src 0x00000000#32 hr hφ hacc (ix4 0 u h c) = ∑ w : Fin 14, src (ix5 0 u h w c) := by
  refine (Ideal.multiReduction_add_single src _ hr hφ hacc _).trans ?_
  refine Finset.sum_congr rfl fun w _ => congrArg src ?_
  funext a
  match a with
  | ⟨0, _⟩ => rfl
  | ⟨1, _⟩ => rfl
  | ⟨2, _⟩ => rfl
  | ⟨3, _⟩ => rfl
  | ⟨4, _⟩ => rfl

private theorem sumH (src : FVec Ideal S1x128x14x1x16 .f32) (hr : S1x128x14x1x16.Reduces [2] S1x128x1x16)
    (hφ : FKind.Formats .f32) (hacc : (0x00000000#32 : BitVec 32) = FKind.add.neutral .f32 hφ)
    (u : Fin 128) (c : Fin 16) :
    multiReduction .add [2] S1x128x1x16 src 0x00000000#32 hr hφ hacc (ix4 0 u 0 c) = ∑ h : Fin 14, src (ix5 0 u h 0 c) := by
  refine (Ideal.multiReduction_add_single src _ hr hφ hacc _).trans ?_
  refine Finset.sum_congr rfl fun h _ => congrArg src ?_
  funext a
  match a with
  | ⟨0, _⟩ => rfl
  | ⟨1, _⟩ => rfl
  | ⟨2, _⟩ => rfl
  | ⟨3, _⟩ => rfl
  | ⟨4, _⟩ => rfl

private theorem sumU (src : FVec Ideal S1x128x1x1x16 .f32) (hr : S1x128x1x1x16.Reduces [1] S1x1x1x16)
    (hφ : FKind.Formats .f32) (hacc : (0x00000000#32 : BitVec 32) = FKind.add.neutral .f32 hφ)
    (c : Fin 16) :
    multiReduction .add [1] S1x1x1x16 src 0x00000000#32 hr hφ hacc (ix4 0 0 0 c) = ∑ u : Fin 128, src (ix5 0 u 0 0 c) := by
  refine (Ideal.multiReduction_add_single src _ hr hφ hacc _).trans ?_
  refine Finset.sum_congr rfl fun u _ => congrArg src ?_
  funext a
  match a with
  | ⟨0, _⟩ => rfl
  | ⟨1, _⟩ => rfl
  | ⟨2, _⟩ => rfl
  | ⟨3, _⟩ => rfl
  | ⟨4, _⟩ => rfl

private theorem sumC (src : FVec Ideal S1x128x14x14x16 .f32) (hr : S1x128x14x14x16.Reduces [4] S1x128x14x14)
    (hφ : FKind.Formats .f32) (hacc : (0x00000000#32 : BitVec 32) = FKind.add.neutral .f32 hφ)
    (u : Fin 128) (h : Fin 14) (w : Fin 14) :
    multiReduction .add [4] S1x128x14x14 src 0x00000000#32 hr hφ hacc (ix4 0 u h w) = ∑ c : Fin 16, src (ix5 0 u h w c) := by
  refine (Ideal.multiReduction_add_single src _ hr hφ hacc _).trans ?_
  refine Finset.sum_congr rfl fun c _ => congrArg src ?_
  funext a
  match a with
  | ⟨0, _⟩ => rfl
  | ⟨1, _⟩ => rfl
  | ⟨2, _⟩ => rfl
  | ⟨3, _⟩ => rfl
  | ⟨4, _⟩ => rfl

private theorem sumW1 (src : FVec Ideal S1x128x14x14x1 .f32) (hr : S1x128x14x14x1.Reduces [3] S1x128x14x1)
    (hφ : FKind.Formats .f32) (hacc : (0x00000000#32 : BitVec 32) = FKind.add.neutral .f32 hφ)
    (u : Fin 128) (h : Fin 14) :
    multiReduction .add [3] S1x128x14x1 src 0x00000000#32 hr hφ hacc (ix4 0 u h 0) = ∑ w : Fin 14, src (ix5 0 u h w 0) := by
  refine (Ideal.multiReduction_add_single src _ hr hφ hacc _).trans ?_
  refine Finset.sum_congr rfl fun w _ => congrArg src ?_
  funext a
  match a with
  | ⟨0, _⟩ => rfl
  | ⟨1, _⟩ => rfl
  | ⟨2, _⟩ => rfl
  | ⟨3, _⟩ => rfl
  | ⟨4, _⟩ => rfl

private theorem sumH1 (src : FVec Ideal S1x128x14x1x1 .f32) (hr : S1x128x14x1x1.Reduces [2] S1x128x1x1)
    (hφ : FKind.Formats .f32) (hacc : (0x00000000#32 : BitVec 32) = FKind.add.neutral .f32 hφ)
    (u : Fin 128) :
    multiReduction .add [2] S1x128x1x1 src 0x00000000#32 hr hφ hacc (ix4 0 u 0 0) = ∑ h : Fin 14, src (ix5 0 u h 0 0) := by
  refine (Ideal.multiReduction_add_single src _ hr hφ hacc _).trans ?_
  refine Finset.sum_congr rfl fun h _ => congrArg src ?_
  funext a
  match a with
  | ⟨0, _⟩ => rfl
  | ⟨1, _⟩ => rfl
  | ⟨2, _⟩ => rfl
  | ⟨3, _⟩ => rfl
  | ⟨4, _⟩ => rfl

private theorem sumU1 (src : FVec Ideal S1x128x1x1x1 .f32) (hr : S1x128x1x1x1.Reduces [1] S1x1x1x1)
    (hφ : FKind.Formats .f32) (hacc : (0x00000000#32 : BitVec 32) = FKind.add.neutral .f32 hφ)
     :
    multiReduction .add [1] S1x1x1x1 src 0x00000000#32 hr hφ hacc (ix4 0 0 0 0) = ∑ u : Fin 128, src (ix5 0 u 0 0 0) := by
  refine (Ideal.multiReduction_add_single src _ hr hφ hacc _).trans ?_
  refine Finset.sum_congr rfl fun u _ => congrArg src ?_
  funext a
  match a with
  | ⟨0, _⟩ => rfl
  | ⟨1, _⟩ => rfl
  | ⟨2, _⟩ => rfl
  | ⟨3, _⟩ => rfl
  | ⟨4, _⟩ => rfl

private theorem castW {α : Type} (x : S1x128x14x16.Idx → α) (hc : S1x128x14x16.ShapeCasts S1x128x14x1x16) (u : Fin 128) (h : Fin 14) (c : Fin 16) :
    shapeCast S1x128x14x1x16 x hc (ix5 0 u h 0 c) = x (ix4 0 u h c) :=
  shapeCast_apply x hc _ _ (by
    rw [Shape.rowMajor_val_four, Shape.rowMajor_val_five]
    show ((0 * 128 + u.val) * 14 + h.val) * 16 + c.val = (((0 * 128 + u.val) * 14 + h.val) * 1 + 0) * 16 + c.val
    omega)

private theorem castH {α : Type} (x : S1x128x1x16.Idx → α) (hc : S1x128x1x16.ShapeCasts S1x128x1x1x16) (u : Fin 128) (c : Fin 16) :
    shapeCast S1x128x1x1x16 x hc (ix5 0 u 0 0 c) = x (ix4 0 u 0 c) :=
  shapeCast_apply x hc _ _ (by
    rw [Shape.rowMajor_val_four, Shape.rowMajor_val_five]
    show ((0 * 128 + u.val) * 1 + 0) * 16 + c.val = (((0 * 128 + u.val) * 1 + 0) * 1 + 0) * 16 + c.val
    omega)

private theorem castU {α : Type} (x : S1x1x1x16.Idx → α) (hc : S1x1x1x16.ShapeCasts S1x1x1x1x16) (c : Fin 16) :
    shapeCast S1x1x1x1x16 x hc (ix5 0 0 0 0 c) = x (ix4 0 0 0 c) :=
  shapeCast_apply x hc _ _ (by
    rw [Shape.rowMajor_val_four, Shape.rowMajor_val_five]
    show ((0 * 1 + 0) * 1 + 0) * 16 + c.val = (((0 * 1 + 0) * 1 + 0) * 1 + 0) * 16 + c.val
    omega)

private theorem castOut {α : Type} (x : S1x1x1x1x16.Idx → α) (hc : S1x1x1x1x16.ShapeCasts S1x1x16) (c : Fin 16) :
    shapeCast S1x1x16 x hc (ix3 0 0 c) = x (ix5 0 0 0 0 c) :=
  shapeCast_apply x hc _ _ (by
    rw [Shape.rowMajor_val_five, Shape.rowMajor_val_three]
    show (((0 * 1 + 0) * 1 + 0) * 1 + 0) * 16 + c.val = (0 * 1 + 0) * 16 + c.val
    omega)

private theorem castC1 {α : Type} (x : S1x128x14x14.Idx → α) (hc : S1x128x14x14.ShapeCasts S1x128x14x14x1) (u : Fin 128) (h : Fin 14) (w : Fin 14) :
    shapeCast S1x128x14x14x1 x hc (ix5 0 u h w 0) = x (ix4 0 u h w) :=
  shapeCast_apply x hc _ _ (by
    rw [Shape.rowMajor_val_four, Shape.rowMajor_val_five]
    show ((0 * 128 + u.val) * 14 + h.val) * 14 + w.val = (((0 * 128 + u.val) * 14 + h.val) * 14 + w.val) * 1 + 0
    omega)

private theorem castW1 {α : Type} (x : S1x128x14x1.Idx → α) (hc : S1x128x14x1.ShapeCasts S1x128x14x1x1) (u : Fin 128) (h : Fin 14) :
    shapeCast S1x128x14x1x1 x hc (ix5 0 u h 0 0) = x (ix4 0 u h 0) :=
  shapeCast_apply x hc _ _ (by
    rw [Shape.rowMajor_val_four, Shape.rowMajor_val_five]
    show ((0 * 128 + u.val) * 14 + h.val) * 1 + 0 = (((0 * 128 + u.val) * 14 + h.val) * 1 + 0) * 1 + 0
    omega)

private theorem castH1 {α : Type} (x : S1x128x1x1.Idx → α) (hc : S1x128x1x1.ShapeCasts S1x128x1x1x1) (u : Fin 128) :
    shapeCast S1x128x1x1x1 x hc (ix5 0 u 0 0 0) = x (ix4 0 u 0 0) :=
  shapeCast_apply x hc _ _ (by
    rw [Shape.rowMajor_val_four, Shape.rowMajor_val_five]
    show ((0 * 128 + u.val) * 1 + 0) * 1 + 0 = (((0 * 128 + u.val) * 1 + 0) * 1 + 0) * 1 + 0
    omega)

private theorem castU1 {α : Type} (x : S1x1x1x1.Idx → α) (hc : S1x1x1x1.ShapeCasts S1x1x1x1x1)  :
    shapeCast S1x1x1x1x1 x hc (ix5 0 0 0 0 0) = x (ix4 0 0 0 0) :=
  shapeCast_apply x hc _ _ (by
    rw [Shape.rowMajor_val_four, Shape.rowMajor_val_five]
    show ((0 * 1 + 0) * 1 + 0) * 1 + 0 = (((0 * 1 + 0) * 1 + 0) * 1 + 0) * 1 + 0
    omega)

private theorem castOut1 {α : Type} (x : S1x1x1x1x1.Idx → α) (hc : S1x1x1x1x1.ShapeCasts S1x1x1)  :
    shapeCast S1x1x1 x hc (ix3 0 0 0) = x (ix5 0 0 0 0 0) :=
  shapeCast_apply x hc _ _ (by
    rw [Shape.rowMajor_val_five, Shape.rowMajor_val_three]
    show (((0 * 1 + 0) * 1 + 0) * 1 + 0) * 1 + 0 = (0 * 1 + 0) * 1 + 0
    omega)

/-- The broadcast of a per-step vector over height, width and channel reads the step's entry. -/
private theorem bcastU {α : Type} (m : S1x128x1x1x1.Idx → α) (hb : S1x128x1x1x1.Broadcasts S1x128x14x14x16)
    (u : Fin 128) (h : Fin 14) (w : Fin 14) (c : Fin 16) :
    broadcastTo S1x128x14x14x16 m hb (ix5 0 u h w c) = m (ix5 0 u 0 0 0) :=
  broadcastTo_apply m hb _ _ (fun a => by
    match a with
    | ⟨0, _⟩ => rfl
    | ⟨1, _⟩ => rfl
    | ⟨2, _⟩ => rfl
    | ⟨3, _⟩ => rfl
    | ⟨4, _⟩ => rfl)

/-- The logarithm of a vector is taken element by element. -/
private theorem log_apply {s : Shape} (a : FVec Ideal s .f32) (j : s.Idx) : log a j = Ideal.log (a j) := rfl

/-- The three nested lane sums (width, then height, then step) at channel `c`. -/
private theorem pay9_apply (y : FVec Ideal S1x128x14x14x16 .f32) (c : Fin 16) :
    k0_pay9 (F := Ideal) y (ix5 0 0 0 0 c) = ∑ u : Fin 128, ∑ h : Fin 14, ∑ w : Fin 14, y (ix5 0 u h w c) := by
  unfold k0_pay9
  refine (castU _ _ c).trans ?_
  refine (sumU _ _ _ _ c).trans ?_
  refine Finset.sum_congr rfl fun u _ => ?_
  refine (castH _ _ u c).trans ?_
  refine (sumH _ _ _ _ u c).trans ?_
  refine Finset.sum_congr rfl fun h _ => ?_
  refine (castW _ _ u h c).trans ?_
  exact sumW _ _ _ _ u h c

/-- The kernel's step indicator at step `u` of the tile. -/
private theorem pay6_apply (i : grid0.Coords) (v : Elt Ideal .i32) (u : Fin 128) :
    k0_pay6 (F := Ideal) i v (ix5 0 u 0 0 0) = TTVLoss.kmsk (i 1).val v u.val := by
  have hi : iota .tc S1x128x1x1x1 32 [1] iota_S1x128x1x1x1_d1_w32 (ix5 0 u 0 0 0) = BitVec.ofNat 32 u.val :=
    iota_single_apply .tc S1x128x1x1x1 32 1 _ _
  unfold k0_pay6 TTVLoss.kmsk
  show ((((IntOp.cmpi .slt (IntOp.addi (iota .tc S1x128x1x1x1 32 [1] iota_S1x128x1x1x1_d1_w32 (ix5 0 u 0 0 0))
      (Scalar.muli (BitVec.ofNat 32 (i 1).val) 128#32)) v).setWidth 32).toInt : ℝ) : EReal) = _
  rw [hi]

/-- The masked tile at an index: the clip times the step's indicator. -/
private theorem pay7_apply (i : grid0.Coords) (v : Elt Ideal .i32) (x : Vec Ideal S1x128x14x14x16 .f32)
    (u : Fin 128) (h : Fin 14) (w : Fin 14) (c : Fin 16) :
    k0_pay7 (F := Ideal) i v x (ix5 0 u h w c) = x (ix5 0 u h w c) * TTVLoss.kmsk (i 1).val v u.val := by
  unfold k0_pay7
  show x (ix5 0 u h w c) * broadcastTo S1x128x14x14x16 (k0_pay6 i v) _ (ix5 0 u h w c) = _
  exact congrArg (x (ix5 0 u h w c) * ·) ((bcastU _ _ u h w c).trans (pay6_apply i v u))

/-- The zero blocks the first tile of a row stores. -/
theorem pay3_apply (j : S1x1x16.Idx) : k0_pay3 (F := Ideal) j = 0 := Ideal.ofBits_zero_f32
theorem pay4_apply (j : S1x1x16.Idx) : k0_pay4 (F := Ideal) j = 0 := Ideal.ofBits_zero_f32
theorem pay5_apply (j : S1x1x1.Idx) : k0_pay5 (F := Ideal) j = 0 := Ideal.ofBits_zero_f32

/-- The active sum's update at channel `c`. -/
theorem pay8_apply (i : grid0.Coords) (v : Elt Ideal .i32) (x : Vec Ideal S1x128x14x14x16 .f32) (acc : Vec Ideal S1x1x16 .f32) (c : Fin 16) :
    k0_pay8 (F := Ideal) i v x acc (ix3 0 0 c)
      = acc (ix3 0 0 c) + ∑ u : Fin 128, ∑ h : Fin 14, ∑ w : Fin 14, x (ix5 0 u h w c) * TTVLoss.kmsk (i 1).val v u.val := by
  show shapeCast S1x1x16 acc shapeCasts_S1x1x16_S1x1x16 (ix3 0 0 c)
      + shapeCast S1x1x16 (k0_pay9 (k0_pay7 i v x)) shapeCasts_S1x1x1x1x16_S1x1x16 (ix3 0 0 c) = _
  refine congrArg₂ (· + ·) (congrFun (shapeCast_self acc _) _) ?_
  refine (castOut _ _ c).trans ?_
  refine (pay9_apply _ c).trans ?_
  exact Finset.sum_congr rfl fun u _ => Finset.sum_congr rfl fun h _ => Finset.sum_congr rfl fun w _ => pay7_apply i v x u h w c

/-- The whole sum's update at channel `c`. -/
theorem pay1_apply (x : Vec Ideal S1x128x14x14x16 .f32) (acc : Vec Ideal S1x1x16 .f32) (c : Fin 16) :
    k0_pay1 (F := Ideal) (k0_pay9 x) acc (ix3 0 0 c)
      = acc (ix3 0 0 c) + ∑ u : Fin 128, ∑ h : Fin 14, ∑ w : Fin 14, x (ix5 0 u h w c) := by
  show shapeCast S1x1x16 acc shapeCasts_S1x1x16_S1x1x16 (ix3 0 0 c)
      + shapeCast S1x1x16 (k0_pay9 x) shapeCasts_S1x1x1x1x16_S1x1x16 (ix3 0 0 c) = _
  refine congrArg₂ (· + ·) (congrFun (shapeCast_self acc _) _) ?_
  exact (castOut _ _ c).trans (pay9_apply x c)

/-- The divergence's update (its block has one element). -/
theorem pay2_apply (i : grid0.Coords) (v : Elt Ideal .i32) (x : Vec Ideal S1x128x14x14x16 .f32) (acc : Vec Ideal S1x1x1 .f32) :
    k0_pay2 (F := Ideal) (k0_pay6 i v) (k0_pay7 i v x) acc (ix3 0 0 0)
      = acc (ix3 0 0 0) + ∑ u : Fin 128, ∑ h : Fin 14, ∑ w : Fin 14, ∑ c : Fin 16,
          TTVLoss.klE (TTVLoss.kmsk (i 1).val v u.val) (x (ix5 0 u h w c) * TTVLoss.kmsk (i 1).val v u.val) := by
  unfold k0_pay2
  refine (addf_apply _ _ _).trans ?_
  refine congrArg₂ (· + ·) (congrFun (shapeCast_self acc _) _) ?_
  refine (castOut1 _ _).trans ?_
  refine (castU1 _ _).trans ?_
  refine (sumU1 _ _ _ _).trans ?_
  refine Finset.sum_congr rfl fun u _ => ?_
  refine (castH1 _ _ u).trans ?_
  refine (sumH1 _ _ _ _ u).trans ?_
  refine Finset.sum_congr rfl fun h _ => ?_
  refine (castW1 _ _ u h).trans ?_
  refine (sumW1 _ _ _ _ u h).trans ?_
  refine Finset.sum_congr rfl fun w _ => ?_
  refine (castC1 _ _ u h w).trans ?_
  refine (sumC _ _ _ _ u h w).trans ?_
  refine Finset.sum_congr rfl fun c _ => ?_
  simp only [mulf_apply, log_apply, divf_apply, minimumf_apply, maximumf_apply, broadcast_apply, bcastU, pay6_apply,
    pay7_apply]
  rfl

end Cert.KernelIdeal.Val

end
-- ==== Proof.Sums.lean ====
/-
  Sums over the extended reals: the time axis cut into eight tiles of 128 steps, a sum over the indices that
  drop to one (row, channel) pair as three nested sums, and the blank mass as the whole mass minus the active
  mass (where every clip is finite).
-/
import proofs.«409814_j1623497638139_2_alg».proof.Proof.Spec

noncomputable section

namespace TTVLoss

open Idealize.ShloMosaic Idealize.ShloMosaic.ValueIdx

variable (X : SX.Idx → EReal) (L : SL.Idx → BitVec 32)

/-- A sum over the 1024 steps is the sum over the eight tiles of the sums over each tile's 128 steps. -/
theorem sum_tiles (g : ℕ → EReal) : ∑ s ∈ Finset.range 8, ∑ u : Fin 128, g (128 * s + u.val) = ∑ t : Fin 1024, g t.val := by
  rw [Finset.sum_range (fun s => ∑ u : Fin 128, g (128 * s + u.val))]
  rw [← Fintype.sum_prod_type' (fun (s : Fin 8) (u : Fin 128) => g (128 * s.val + u.val))]
  show _ = ∑ t : Fin (8 * 128), g t.val
  rw [← Equiv.sum_comp (finProdFinEquiv (m := 8) (n := 128)) (fun t : Fin (8 * 128) => g t.val)]
  refine Finset.sum_congr rfl (fun p _ => ?_)
  show g (128 * p.1.val + p.2.val) = g (p.2.val + 128 * p.1.val)
  rw [Nat.add_comm]

/-- A step of a tile, numbered inside the whole axis, reads the clip at that step. -/
private theorem Xn_fin (b : Fin 16) (t : Fin 1024) (h w : Fin 14) (c : Fin 16) :
    Xn X b t.val h w c = X (ix5 b t h w c) := by
  unfold Xn
  rw [dif_pos t.isLt]

theorem act_eq_tiles (b c : Fin 16) : act X L b c = ∑ s ∈ Finset.range 8, tileAct X L b s c := by
  unfold act tileAct
  have h := sum_tiles (fun t => ∑ h : Fin 14, ∑ w : Fin 14, Xn X b t h w c * msk (L (ix1 b)) t)
  rw [h]
  refine Finset.sum_congr rfl (fun t _ => ?_)
  simp only [Xn_fin]

theorem tot_eq_tiles (b c : Fin 16) : tot X b c = ∑ s ∈ Finset.range 8, tileTot X b s c := by
  unfold tot tileTot
  have h := sum_tiles (fun t => ∑ h : Fin 14, ∑ w : Fin 14, Xn X b t h w c)
  rw [h]
  refine Finset.sum_congr rfl (fun t _ => ?_)
  simp only [Xn_fin]

theorem klb_eq_tiles (b : Fin 16) : klb X L b = ∑ s ∈ Finset.range 8, tileKl X L b s := by
  unfold klb tileKl
  have h := sum_tiles (fun t => ∑ h : Fin 14, ∑ w : Fin 14, ∑ c : Fin 16,
    klE (msk (L (ix1 b)) t) (Xn X b t h w c * msk (L (ix1 b)) t))
  rw [h]
  refine Finset.sum_congr rfl (fun t _ => ?_)
  simp only [Xn_fin]

/-- The indicator is 0 or 1. -/
theorem msk_cases (l : BitVec 32) (t : ℕ) : msk l t = 0 ∨ msk l t = 1 := by
  unfold msk; split <;> simp

/-- The coercion of the reals into the extended reals carries a finite sum to the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real clips and a real indicator the whole mass minus the active mass is the blank mass:
    all three are coercions of real sums, and there x - x·m = x·(1 - m) termwise. -/
private theorem sub_real (x m : Fin 1024 → Fin 14 → Fin 14 → ℝ) :
    (∑ t, ∑ h, ∑ w, (x t h w : EReal)) - (∑ t, ∑ h, ∑ w, (x t h w : EReal) * (m t h w : EReal))
      = ∑ t, ∑ h, ∑ w, (x t h w : EReal) * (1 - (m t h w : EReal)) := by
  simp only [← EReal.coe_one, ← EReal.coe_sub, ← EReal.coe_mul, ← coe_sum]
  congr 1
  simp only [mul_sub, mul_one, Finset.sum_sub_distrib]

/-- Where every clip is a real number, the whole mass minus the active mass is the blank mass. -/
theorem tot_sub_act (hfin : ∀ i, X i ≠ ⊤ ∧ X i ≠ ⊥) (b c : Fin 16) : tot X b c - act X L b c = blk X L b c := by
  obtain ⟨x, rfl⟩ : ∃ x : SX.Idx → ℝ, X = fun i => (x i : EReal) :=
    ⟨fun i => (X i).toReal, funext fun i => (EReal.coe_toReal (hfin i).1 (hfin i).2).symm⟩
  have hm : ∀ l t, msk l t = ((if (BitVec.ofNat 32 t).slt l then (1 : ℝ) else 0 : ℝ) : EReal) := by
    intro l t; unfold msk; split <;> simp
  unfold tot act blk
  simp only [hm]
  exact sub_real (fun t h w => x (ix5 b t h w c))
    (fun t _ _ => if (BitVec.ofNat 32 t.val).slt (L (ix1 b)) then (1 : ℝ) else 0)

/-- Dropping the step, height and width axes keeps the row on result axis 0 … -/
private theorem drop_val0 (hr : SX.ReducesTo [1, 2, 3] T16x16) (i : SX.Idx) : (hr.drop i 0 : ℕ) = i 0 :=
  Shape.ReducesTo.drop_apply_val_of_eq hr i 0 0

/-- … and the channel on result axis 1. -/
private theorem drop_val1 (hr : SX.ReducesTo [1, 2, 3] T16x16) (i : SX.Idx) : (hr.drop i 1 : ℕ) = i 4 :=
  Shape.ReducesTo.drop_apply_val_of_eq hr i 1 4

/-- The clips of the (row, channel) pair `j`, by (step, height, width). -/
private def dropEmb (j : T16x16.Idx) : Fin 1024 × Fin 14 × Fin 14 ↪ SX.Idx :=
  ⟨fun p => ix5 (j 0) p.1 p.2.1 p.2.2 (j 1), fun p q h => by
    have h1 : p.1 = q.1 := congrFun h 1
    have h2 : p.2.1 = q.2.1 := congrFun h 2
    have h3 : p.2.2 = q.2.2 := congrFun h 3
    exact Prod.ext h1 (Prod.ext h2 h3)⟩

private theorem filter_drop (hr : SX.ReducesTo [1, 2, 3] T16x16) (j : T16x16.Idx) :
    Finset.univ.filter (fun i : SX.Idx => hr.drop i = j) = Finset.univ.map (dropEmb j) := by
  ext i
  simp only [Finset.mem_filter, Finset.mem_univ, true_and, Finset.mem_map, dropEmb, Function.Embedding.coeFn_mk]
  constructor
  · intro h
    subst h
    refine ⟨(i 1, i 2, i 3), ?_⟩
    funext a
    match a with
    | ⟨0, _⟩ => exact Fin.ext (drop_val0 hr i)
    | ⟨1, _⟩ => rfl
    | ⟨2, _⟩ => rfl
    | ⟨3, _⟩ => rfl
    | ⟨4, _⟩ => exact Fin.ext (drop_val1 hr i)
  · rintro ⟨p, rfl⟩
    funext b
    match b with
    | ⟨0, _⟩ => exact Fin.ext (drop_val0 hr _)
    | ⟨1, _⟩ => exact Fin.ext (drop_val1 hr _)

/-- The indices of the clips that drop to the (row, channel) pair `j` when the step, height and width axes are
    summed out are the `(j 0, t, h, w, j 1)`. -/
theorem sum_drop123 (hr : SX.ReducesTo [1, 2, 3] T16x16) (f : SX.Idx → EReal) (j : T16x16.Idx) :
    ∑ i ∈ Finset.univ.filter (fun i => hr.drop i = j), f i
      = ∑ t : Fin 1024, ∑ h : Fin 14, ∑ w : Fin 14, f (ix5 (j 0) t h w (j 1)) := by
  rw [filter_drop, Finset.sum_map, Fintype.sum_prod_type]
  simp only [Fintype.sum_prod_type]
  rfl

/-- A rank-4 index set is the product of its four coordinate ranges. -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over every (row, step, height, width) index as four nested sums. -/
theorem sum_idx4 (f : (⟨4, ![16, 1024, 14, 14]⟩ : Shape).Idx → EReal) :
    ∑ i, f i = ∑ b : Fin 16, ∑ t : Fin 1024, ∑ h : Fin 14, ∑ w : Fin 14, f (ix4 b t h w) := by
  rw [← Equiv.sum_comp (idxEquiv4 (n0 := 16) (n1 := 1024) (n2 := 14) (n3 := 14)).symm f, Fintype.sum_prod_type]
  simp only [Fintype.sum_prod_type]
  rfl

end TTVLoss

end
-- ==== Proof.Accum.lean ====
/-
  The three running sums after each grid point: after point n = 8·b + s they hold the shares of tiles 0 … s of row b
  (the first tile of a row updates the zero block, a later tile what the tile before left).
-/
import proofs.«409814_j1623497638139_2_alg».proof.Proof.Tile
import proofs.«409814_j1623497638139_2_alg».proof.Proof.Payload
import proofs.«409814_j1623497638139_2_alg».proof.Proof.Sums

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen

variable (m : (ℓ : Loc nD τ sig) → Buf (Elt Ideal) ℓ)

/-- Tile t % 8 of row t / 8: its share of the active mass, from what point t reads. -/
theorem tile1 (hO : Ok m) (c : Dev nD) (t : Fin (cfgM m hO).N) (ch : Fin 16) :
    ∑ u : Fin 128, ∑ h : Fin 14, ∑ w : Fin 14,
        xblk m hO c t (ix5 0 u h w ch) * TTVLoss.kmsk ((grid0.coords t) 1).val (tword c (grid0.coords t) (tbl m 0)) u.val
      = TTVLoss.tileAct (Xc m) (Lc m) (rowOf t.val (lt_of_lt_of_eq t.isLt (N_eq m hO))) (t.val % 8) ch := by
  unfold TTVLoss.tileAct
  refine Finset.sum_congr rfl fun u _ => Finset.sum_congr rfl fun h _ => Finset.sum_congr rfl fun w _ => ?_
  rw [xblk_apply, kmsk_point m hO c t u]

/-- Its share of the whole mass. -/
theorem tile2 (hO : Ok m) (c : Dev nD) (t : Fin (cfgM m hO).N) (ch : Fin 16) :
    ∑ u : Fin 128, ∑ h : Fin 14, ∑ w : Fin 14, xblk m hO c t (ix5 0 u h w ch)
      = TTVLoss.tileTot (Xc m) (rowOf t.val (lt_of_lt_of_eq t.isLt (N_eq m hO))) (t.val % 8) ch := by
  unfold TTVLoss.tileTot
  refine Finset.sum_congr rfl fun u _ => Finset.sum_congr rfl fun h _ => Finset.sum_congr rfl fun w _ => ?_
  rw [xblk_apply]

/-- Its share of the divergence. -/
theorem tile3 (hO : Ok m) (c : Dev nD) (t : Fin (cfgM m hO).N) :
    ∑ u : Fin 128, ∑ h : Fin 14, ∑ w : Fin 14, ∑ ch : Fin 16,
        TTVLoss.klE (TTVLoss.kmsk ((grid0.coords t) 1).val (tword c (grid0.coords t) (tbl m 0)) u.val)
          (xblk m hO c t (ix5 0 u h w ch) * TTVLoss.kmsk ((grid0.coords t) 1).val (tword c (grid0.coords t) (tbl m 0)) u.val)
      = TTVLoss.tileKl (Xc m) (Lc m) (rowOf t.val (lt_of_lt_of_eq t.isLt (N_eq m hO))) (t.val % 8) := by
  unfold TTVLoss.tileKl
  refine Finset.sum_congr rfl fun u _ => Finset.sum_congr rfl fun h _ => Finset.sum_congr rfl fun w _ =>
    Finset.sum_congr rfl fun ch _ => ?_
  rw [xblk_apply, kmsk_point m hO c t u]

/-- The first tile of a row leaves its own shares. -/
theorem step_A (hO : Ok m) (c : Dev nD) (t : Fin (cfgM m hO).N) (h0 : t.val % 8 = 0) :
    (∀ ch : Fin 16, (outsAt0 m hO c t.val t.isLt).1 (ix3 0 0 ch)
        = TTVLoss.tileAct (Xc m) (Lc m) (rowOf t.val (lt_of_lt_of_eq t.isLt (N_eq m hO))) (t.val % 8) ch)
    ∧ (∀ ch : Fin 16, (outsAt0 m hO c t.val t.isLt).2.1 (ix3 0 0 ch)
        = TTVLoss.tileTot (Xc m) (rowOf t.val (lt_of_lt_of_eq t.isLt (N_eq m hO))) (t.val % 8) ch)
    ∧ (outsAt0 m hO c t.val t.isLt).2.2 (ix3 0 0 0)
        = TTVLoss.tileKl (Xc m) (Lc m) (rowOf t.val (lt_of_lt_of_eq t.isLt (N_eq m hO))) (t.val % 8) := by
  refine ⟨fun ch => ?_, fun ch => ?_, ?_⟩
  · rw [outsAt0_A m hO c t h0]; dsimp only
    refine (congrFun (out_A_1 (F := Ideal) c (grid0.coords t) (ms0_0 m hO t) (hs0_0 m hO t) (ms0_1 m hO t) (hs0_1 m hO t)
      (ms0_2 m hO t) (hs0_2 m hO t) (ms0_3 m hO t) (hs0_3 m hO t) ((hcond0_0 t).mpr h0) (iblk m hO c 0 t) (tbl m 0)) (ix3 0 0 ch)).trans ?_
    refine (pay8_apply (grid0.coords t) (tword c (grid0.coords t) (tbl m 0)) (xblk m hO c t) (k0_pay3 (F := Ideal)) ch).trans ?_
    rw [pay3_apply, zero_add]
    exact tile1 m hO c t ch
  · rw [outsAt0_A m hO c t h0]; dsimp only
    refine (congrFun (out_A_2 (F := Ideal) c (grid0.coords t) (ms0_0 m hO t) (hs0_0 m hO t) (ms0_1 m hO t) (hs0_1 m hO t)
      (ms0_2 m hO t) (hs0_2 m hO t) (ms0_3 m hO t) (hs0_3 m hO t) ((hcond0_0 t).mpr h0) (iblk m hO c 0 t) (tbl m 0)) (ix3 0 0 ch)).trans ?_
    refine (pay1_apply (xblk m hO c t) (k0_pay4 (F := Ideal)) ch).trans ?_
    rw [pay4_apply, zero_add]
    exact tile2 m hO c t ch
  · rw [outsAt0_A m hO c t h0]; dsimp only
    refine (congrFun (out_A_3 (F := Ideal) c (grid0.coords t) (ms0_0 m hO t) (hs0_0 m hO t) (ms0_1 m hO t) (hs0_1 m hO t)
      (ms0_2 m hO t) (hs0_2 m hO t) (ms0_3 m hO t) (hs0_3 m hO t) ((hcond0_0 t).mpr h0) (iblk m hO c 0 t) (tbl m 0)) (ix3 0 0 0)).trans ?_
    refine (pay2_apply (grid0.coords t) (tword c (grid0.coords t) (tbl m 0)) (xblk m hO c t) (k0_pay5 (F := Ideal))).trans ?_
    rw [pay5_apply, zero_add]
    exact tile3 m hO c t

/-- A later tile adds its shares to what the tile before left. -/
theorem step_B (hO : Ok m) (c : Dev nD) (t : Fin (cfgM m hO).N) (h0 : ¬t.val % 8 = 0) :
    (∀ ch : Fin 16, (outsAt0 m hO c t.val t.isLt).1 (ix3 0 0 ch)
        = (outsAt0 m hO c (t.val - 1) (Nat.lt_of_le_of_lt (Nat.sub_le _ _) t.isLt)).1 (ix3 0 0 ch)
          + TTVLoss.tileAct (Xc m) (Lc m) (rowOf t.val (lt_of_lt_of_eq t.isLt (N_eq m hO))) (t.val % 8) ch)
    ∧ (∀ ch : Fin 16, (outsAt0 m hO c t.val t.isLt).2.1 (ix3 0 0 ch)
        = (outsAt0 m hO c (t.val - 1) (Nat.lt_of_le_of_lt (Nat.sub_le _ _) t.isLt)).2.1 (ix3 0 0 ch)
          + TTVLoss.tileTot (Xc m) (rowOf t.val (lt_of_lt_of_eq t.isLt (N_eq m hO))) (t.val % 8) ch)
    ∧ (outsAt0 m hO c t.val t.isLt).2.2 (ix3 0 0 0)
        = (outsAt0 m hO c (t.val - 1) (Nat.lt_of_le_of_lt (Nat.sub_le _ _) t.isLt)).2.2 (ix3 0 0 0)
          + TTVLoss.tileKl (Xc m) (Lc m) (rowOf t.val (lt_of_lt_of_eq t.isLt (N_eq m hO))) (t.val % 8) := by
  refine ⟨fun ch => ?_, fun ch => ?_, ?_⟩
  · rw [outsAt0_B m hO c t h0]; dsimp only
    refine (congrFun (out_B_1 (F := Ideal) c (grid0.coords t) (ms0_0 m hO t) (hs0_0 m hO t) (ms0_1 m hO t) (hs0_1 m hO t)
      (ms0_2 m hO t) (hs0_2 m hO t) (ms0_3 m hO t) (hs0_3 m hO t) (fun h => h0 ((hcond0_0 t).mp h)) (iblk m hO c 0 t) (tbl m 0)
      (outsAt0 m hO c (t.val - 1) (Nat.lt_of_le_of_lt (Nat.sub_le _ _) t.isLt)).1
      (outsAt0 m hO c (t.val - 1) (Nat.lt_of_le_of_lt (Nat.sub_le _ _) t.isLt)).2.1
      (outsAt0 m hO c (t.val - 1) (Nat.lt_of_le_of_lt (Nat.sub_le _ _) t.isLt)).2.2) (ix3 0 0 ch)).trans ?_
    refine (pay8_apply (grid0.coords t) (tword c (grid0.coords t) (tbl m 0)) (xblk m hO c t)
      (outsAt0 m hO c (t.val - 1) (Nat.lt_of_le_of_lt (Nat.sub_le _ _) t.isLt)).1 ch).trans ?_
    exact congrArg (_ + ·) (tile1 m hO c t ch)
  · rw [outsAt0_B m hO c t h0]; dsimp only
    refine (congrFun (out_B_2 (F := Ideal) c (grid0.coords t) (ms0_0 m hO t) (hs0_0 m hO t) (ms0_1 m hO t) (hs0_1 m hO t)
      (ms0_2 m hO t) (hs0_2 m hO t) (ms0_3 m hO t) (hs0_3 m hO t) (fun h => h0 ((hcond0_0 t).mp h)) (iblk m hO c 0 t) (tbl m 0)
      (outsAt0 m hO c (t.val - 1) (Nat.lt_of_le_of_lt (Nat.sub_le _ _) t.isLt)).1
      (outsAt0 m hO c (t.val - 1) (Nat.lt_of_le_of_lt (Nat.sub_le _ _) t.isLt)).2.1
      (outsAt0 m hO c (t.val - 1) (Nat.lt_of_le_of_lt (Nat.sub_le _ _) t.isLt)).2.2) (ix3 0 0 ch)).trans ?_
    refine (pay1_apply (xblk m hO c t)
      (outsAt0 m hO c (t.val - 1) (Nat.lt_of_le_of_lt (Nat.sub_le _ _) t.isLt)).2.1 ch).trans ?_
    exact congrArg (_ + ·) (tile2 m hO c t ch)
  · rw [outsAt0_B m hO c t h0]; dsimp only
    refine (congrFun (out_B_3 (F := Ideal) c (grid0.coords t) (ms0_0 m hO t) (hs0_0 m hO t) (ms0_1 m hO t) (hs0_1 m hO t)
      (ms0_2 m hO t) (hs0_2 m hO t) (ms0_3 m hO t) (hs0_3 m hO t) (fun h => h0 ((hcond0_0 t).mp h)) (iblk m hO c 0 t) (tbl m 0)
      (outsAt0 m hO c (t.val - 1) (Nat.lt_of_le_of_lt (Nat.sub_le _ _) t.isLt)).1
      (outsAt0 m hO c (t.val - 1) (Nat.lt_of_le_of_lt (Nat.sub_le _ _) t.isLt)).2.1
      (outsAt0 m hO c (t.val - 1) (Nat.lt_of_le_of_lt (Nat.sub_le _ _) t.isLt)).2.2) (ix3 0 0 0)).trans ?_
    refine (pay2_apply (grid0.coords t) (tword c (grid0.coords t) (tbl m 0)) (xblk m hO c t)
      (outsAt0 m hO c (t.val - 1) (Nat.lt_of_le_of_lt (Nat.sub_le _ _) t.isLt)).2.2).trans ?_
    exact congrArg (_ + ·) (tile3 m hO c t)

/-- After point n = 8·b + s the three running sums hold the shares of tiles 0 … s of row b. -/
theorem sums_at (hO : Ok m) (c : Dev nD) : ∀ (n : ℕ) (hn : n < (cfgM m hO).N),
    (∀ ch : Fin 16, (outsAt0 m hO c n hn).1 (ix3 0 0 ch)
        = ∑ k ∈ Finset.range (n % 8 + 1), TTVLoss.tileAct (Xc m) (Lc m) (rowOf n (lt_of_lt_of_eq hn (N_eq m hO))) k ch)
    ∧ (∀ ch : Fin 16, (outsAt0 m hO c n hn).2.1 (ix3 0 0 ch)
        = ∑ k ∈ Finset.range (n % 8 + 1), TTVLoss.tileTot (Xc m) (rowOf n (lt_of_lt_of_eq hn (N_eq m hO))) k ch)
    ∧ (outsAt0 m hO c n hn).2.2 (ix3 0 0 0)
        = ∑ k ∈ Finset.range (n % 8 + 1), TTVLoss.tileKl (Xc m) (Lc m) (rowOf n (lt_of_lt_of_eq hn (N_eq m hO))) k := by
  intro n
  induction n with
  | zero =>
    intro hn
    obtain ⟨h1, h2, h3⟩ := step_A m hO c ⟨0, hn⟩ rfl
    refine ⟨fun ch => ?_, fun ch => ?_, ?_⟩
    · rw [show (0 : ℕ) % 8 + 1 = 1 from rfl, Finset.sum_range_one]; exact h1 ch
    · rw [show (0 : ℕ) % 8 + 1 = 1 from rfl, Finset.sum_range_one]; exact h2 ch
    · rw [show (0 : ℕ) % 8 + 1 = 1 from rfl, Finset.sum_range_one]; exact h3
  | succ n ih =>
    intro hn
    by_cases h0 : (n + 1) % 8 = 0
    · obtain ⟨h1, h2, h3⟩ := step_A m hO c ⟨n + 1, hn⟩ h0
      refine ⟨fun ch => ?_, fun ch => ?_, ?_⟩
      · rw [h0, Finset.sum_range_one]; have := h1 ch; rw [show (⟨n + 1, hn⟩ : Fin (cfgM m hO).N).val % 8 = 0 from h0] at this; exact this
      · rw [h0, Finset.sum_range_one]; have := h2 ch; rw [show (⟨n + 1, hn⟩ : Fin (cfgM m hO).N).val % 8 = 0 from h0] at this; exact this
      · rw [h0, Finset.sum_range_one]; have := h3; rw [show (⟨n + 1, hn⟩ : Fin (cfgM m hO).N).val % 8 = 0 from h0] at this; exact this
    · obtain ⟨h1, h2, h3⟩ := step_B m hO c ⟨n + 1, hn⟩ h0
      obtain ⟨i1, i2, i3⟩ := ih (Nat.lt_of_succ_lt hn)
      have hN : n + 1 < 128 := lt_of_lt_of_eq hn (N_eq m hO)
      have hmod : (n + 1) % 8 = n % 8 + 1 := by omega
      have hrow : rowOf (n + 1) hN = rowOf n (by omega) := Fin.ext (by show (n + 1) / 8 = n / 8; omega)
      refine ⟨fun ch => ?_, fun ch => ?_, ?_⟩
      · refine (h1 ch).trans ?_
        show (outsAt0 m hO c n _).1 (ix3 0 0 ch) + TTVLoss.tileAct (Xc m) (Lc m) (rowOf (n + 1) hN) ((n + 1) % 8) ch = _
        rw [i1 ch, hrow, hmod, Finset.sum_range_succ _ (n % 8 + 1)]
      · refine (h2 ch).trans ?_
        show (outsAt0 m hO c n _).2.1 (ix3 0 0 ch) + TTVLoss.tileTot (Xc m) (rowOf (n + 1) hN) ((n + 1) % 8) ch = _
        rw [i2 ch, hrow, hmod, Finset.sum_range_succ _ (n % 8 + 1)]
      · refine h3.trans ?_
        show (outsAt0 m hO c n _).2.2 (ix3 0 0 0) + TTVLoss.tileKl (Xc m) (Lc m) (rowOf (n + 1) hN) ((n + 1) % 8) = _
        rw [i3, hrow, hmod, Finset.sum_range_succ _ (n % 8 + 1)]

end Cert.KernelIdeal.Val

end
-- ==== Proof.Final.lean ====
/-
  The three result arrays after the region. Row b's block of each is written back once, after the row's last tile
  (grid point 8·b + 7), when the running sums hold all eight tiles' shares: the row's active mass, whole mass and
  divergence. The sixteen blocks cover each array.
-/
import proofs.«409814_j1623497638139_2_alg».proof.Proof.Accum
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen

variable (m : (ℓ : Loc nD τ sig) → Buf (Elt Ideal) ℓ)

/-- The arrays the region leaves. -/
def G1 : S16x1x16.Idx → EReal := fun j => TTVLoss.act (Xc m) (Lc m) ⟨(j 0).val, (j 0).isLt⟩ ⟨(j 2).val, (j 2).isLt⟩
def G2 : S16x1x16.Idx → EReal := fun j => TTVLoss.tot (Xc m) ⟨(j 0).val, (j 0).isLt⟩ ⟨(j 2).val, (j 2).isLt⟩
def G3 : S16x1x1.Idx → EReal := fun j => TTVLoss.klb (Xc m) (Lc m) ⟨(j 0).val, (j 0).isLt⟩

/-- The output windows' index maps at grid point t: block (t / 8, 0, 0) of each result array. -/
private theorem idx_out : ∀ t : Fin grid0.N,
    (cc0_transform_1 (grid0.coords t) 0 = t.val / 8 ∧ cc0_transform_1 (grid0.coords t) 1 = 0 ∧ cc0_transform_1 (grid0.coords t) 2 = 0)
    ∧ (cc0_transform_2 (grid0.coords t) 0 = t.val / 8 ∧ cc0_transform_2 (grid0.coords t) 1 = 0 ∧ cc0_transform_2 (grid0.coords t) 2 = 0)
    ∧ (cc0_transform_3 (grid0.coords t) 0 = t.val / 8 ∧ cc0_transform_3 (grid0.coords t) 1 = 0 ∧ cc0_transform_3 (grid0.coords t) 2 = 0) :=
  (by decide +kernel : ∀ t : Fin grid0.N,
    (cc0_transform_1 (grid0.coords t) 0 = t.val / 8 ∧ cc0_transform_1 (grid0.coords t) 1 = 0 ∧ cc0_transform_1 (grid0.coords t) 2 = 0)
    ∧ (cc0_transform_2 (grid0.coords t) 0 = t.val / 8 ∧ cc0_transform_2 (grid0.coords t) 1 = 0 ∧ cc0_transform_2 (grid0.coords t) 2 = 0)
    ∧ (cc0_transform_3 (grid0.coords t) 0 = t.val / 8 ∧ cc0_transform_3 (grid0.coords t) 1 = 0 ∧ cc0_transform_3 (grid0.coords t) 2 = 0))

/-- What a writing-back point t (t % 8 = 7) writes to result 1: block (t / 8, 0, 0) of `G1` — the running sum after the
    row's eighth tile is the sum of all eight tiles' shares. -/
private theorem flushed_eq_1 (hO : Ok m) (c : Dev nD) (t : Fin (cfgM m hO).N) (hf : ((cfgM m hO).win 1).flush t = true) :
    (dats m hO 0 c).flushed 1 t = (((cfgM m hO).win 1).blk t).view.read (Elt Ideal) (G1 m) := by
  have hN : t.val < 128 := lt_of_lt_of_eq t.isLt (N_eq m hO)
  have h7 : t.val % 8 = 7 := (flush0_1 (adm m hO) t).mp hf
  show ((cfgM m hO).win 1).cut (grid0.coords t) ((dats m hO 0 c).after 1 t) = _
  rw [after0_1]
  show (fun y : S1x1x16.Idx => (outsAt0 m hO c t.val t.isLt).1 y) = fun y : S1x1x16.Idx => G1 m ((((cfgM m hO).win 1).blk t).view.emb y)
  funext y
  obtain ⟨y0, y1, y2, rfl⟩ : ∃ (y0 : Fin 1) (y1 : Fin 1) (y2 : Fin 16), y = ix3 y0 y1 y2 := ⟨y 0, y 1, y 2, eq_ix3 y⟩
  obtain rfl : y0 = 0 := Subsingleton.elim _ _
  obtain rfl : y1 = 0 := Subsingleton.elim _ _
  rw [(sums_at m hO c t.val t.isLt).1 y2]
  have e0 : ((show S16x1x16.Idx from (((cfgM m hO).win 1).blk t).view.emb (ix3 0 0 y2)) (0 : Fin 3)).val = t.val / 8 := by
    show cc0_transform_1 (grid0.coords t) 0 * 1 + 1 * 0 = t.val / 8
    rw [(idx_out t).1.1]; omega
  have e2 : ((show S16x1x16.Idx from (((cfgM m hO).win 1).blk t).view.emb (ix3 0 0 y2)) (2 : Fin 3)).val = y2.val := by
    show cc0_transform_1 (grid0.coords t) 2 * 16 + 1 * y2.val = y2.val
    rw [(idx_out t).1.2.2]; omega
  have key : ∀ (b ch : Fin 16), b.val = t.val / 8 → ch.val = y2.val →
      ∑ k ∈ Finset.range 8, TTVLoss.tileAct (Xc m) (Lc m) (rowOf t.val hN) k y2 = TTVLoss.act (Xc m) (Lc m) b ch := by
    intro b ch hb hc
    obtain rfl : b = rowOf t.val hN := Fin.ext hb
    obtain rfl : ch = y2 := Fin.ext hc
    exact (TTVLoss.act_eq_tiles (Xc m) (Lc m) _ _).symm
  rw [h7]
  exact key _ _ e0 e2

/-- What a writing-back point t (t % 8 = 7) writes to result 2: block (t / 8, 0, 0) of `G2` — the running sum after the
    row's eighth tile is the sum of all eight tiles' shares. -/
private theorem flushed_eq_2 (hO : Ok m) (c : Dev nD) (t : Fin (cfgM m hO).N) (hf : ((cfgM m hO).win 2).flush t = true) :
    (dats m hO 0 c).flushed 2 t = (((cfgM m hO).win 2).blk t).view.read (Elt Ideal) (G2 m) := by
  have hN : t.val < 128 := lt_of_lt_of_eq t.isLt (N_eq m hO)
  have h7 : t.val % 8 = 7 := (flush0_2 (adm m hO) t).mp hf
  show ((cfgM m hO).win 2).cut (grid0.coords t) ((dats m hO 0 c).after 2 t) = _
  rw [after0_2]
  show (fun y : S1x1x16.Idx => (outsAt0 m hO c t.val t.isLt).2.1 y) = fun y : S1x1x16.Idx => G2 m ((((cfgM m hO).win 2).blk t).view.emb y)
  funext y
  obtain ⟨y0, y1, y2, rfl⟩ : ∃ (y0 : Fin 1) (y1 : Fin 1) (y2 : Fin 16), y = ix3 y0 y1 y2 := ⟨y 0, y 1, y 2, eq_ix3 y⟩
  obtain rfl : y0 = 0 := Subsingleton.elim _ _
  obtain rfl : y1 = 0 := Subsingleton.elim _ _
  rw [(sums_at m hO c t.val t.isLt).2.1 y2]
  have e0 : ((show S16x1x16.Idx from (((cfgM m hO).win 2).blk t).view.emb (ix3 0 0 y2)) (0 : Fin 3)).val = t.val / 8 := by
    show cc0_transform_2 (grid0.coords t) 0 * 1 + 1 * 0 = t.val / 8
    rw [(idx_out t).2.1.1]; omega
  have e2 : ((show S16x1x16.Idx from (((cfgM m hO).win 2).blk t).view.emb (ix3 0 0 y2)) (2 : Fin 3)).val = y2.val := by
    show cc0_transform_2 (grid0.coords t) 2 * 16 + 1 * y2.val = y2.val
    rw [(idx_out t).2.1.2.2]; omega
  have key : ∀ (b ch : Fin 16), b.val = t.val / 8 → ch.val = y2.val →
      ∑ k ∈ Finset.range 8, TTVLoss.tileTot (Xc m) (rowOf t.val hN) k y2 = TTVLoss.tot (Xc m) b ch := by
    intro b ch hb hc
    obtain rfl : b = rowOf t.val hN := Fin.ext hb
    obtain rfl : ch = y2 := Fin.ext hc
    exact (TTVLoss.tot_eq_tiles (Xc m) _ _).symm
  rw [h7]
  exact key _ _ e0 e2

/-- What a writing-back point t (t % 8 = 7) writes to result 3: block (t / 8, 0, 0) of `G3` — the running sum after the
    row's eighth tile is the sum of all eight tiles' shares. -/
private theorem flushed_eq_3 (hO : Ok m) (c : Dev nD) (t : Fin (cfgM m hO).N) (hf : ((cfgM m hO).win 3).flush t = true) :
    (dats m hO 0 c).flushed 3 t = (((cfgM m hO).win 3).blk t).view.read (Elt Ideal) (G3 m) := by
  have hN : t.val < 128 := lt_of_lt_of_eq t.isLt (N_eq m hO)
  have h7 : t.val % 8 = 7 := (flush0_3 (adm m hO) t).mp hf
  show ((cfgM m hO).win 3).cut (grid0.coords t) ((dats m hO 0 c).after 3 t) = _
  rw [after0_3]
  show (fun y : S1x1x1.Idx => (outsAt0 m hO c t.val t.isLt).2.2 y) = fun y : S1x1x1.Idx => G3 m ((((cfgM m hO).win 3).blk t).view.emb y)
  funext y
  obtain ⟨y0, y1, y2, rfl⟩ : ∃ (y0 : Fin 1) (y1 : Fin 1) (y2 : Fin 1), y = ix3 y0 y1 y2 := ⟨y 0, y 1, y 2, eq_ix3 y⟩
  obtain rfl : y0 = 0 := Subsingleton.elim _ _
  obtain rfl : y1 = 0 := Subsingleton.elim _ _
  obtain rfl : y2 = 0 := Subsingleton.elim _ _
  rw [(sums_at m hO c t.val t.isLt).2.2]
  have e0 : ((show S16x1x1.Idx from (((cfgM m hO).win 3).blk t).view.emb (ix3 0 0 0)) (0 : Fin 3)).val = t.val / 8 := by
    show cc0_transform_3 (grid0.coords t) 0 * 1 + 1 * 0 = t.val / 8
    rw [(idx_out t).2.2.1]; omega
  have key : ∀ (b : Fin 16), b.val = t.val / 8 →
      ∑ k ∈ Finset.range 8, TTVLoss.tileKl (Xc m) (Lc m) (rowOf t.val hN) k = TTVLoss.klb (Xc m) (Lc m) b := by
    intro b hb
    obtain rfl : b = rowOf t.val hN := Fin.ext hb
    exact (TTVLoss.klb_eq_tiles (Xc m) (Lc m) _).symm
  rw [h7]
  exact key _ e0

theorem final1 (hO : Ok m) (c : Dev nD) : (dats m hO 0 c).arrAt 1 (cfgM m hO).N = G1 m :=
  -- every index (b, 0, ch) of the array lies in block (b, 0, 0), which point 8·b + 7 writes back
  (dats m hO 0 c).arrAt_eq_of_cover 1 (G1 m) (flushed_eq_1 m hO c) fun (i : S16x1x16.Idx) => by
    have h0 : (i 0).val < 16 := (i 0).isLt
    have h1 : (i 1).val < 1 := (i 1).isLt
    have h2 : (i 2).val < 16 := (i 2).isLt
    have hlt : 8 * (i 0).val + 7 < (cfgM m hO).N := by rw [N_eq m hO]; omega
    refine ⟨⟨8 * (i 0).val + 7, hlt⟩, (flush0_1 (adm m hO) _).mpr (by show (8 * (i 0).val + 7) % 8 = 7; omega), ?_⟩
    show i ∈ ((View.whole main_v1_0).slice (((cfgM m hO).win 1).rect ⟨8 * (i 0).val + 7, hlt⟩)).set
    refine (Finset.ext_iff.mp (View.set_slice_whole main_v1_0 (((cfgM m hO).win 1).rect ⟨8 * (i 0).val + 7, hlt⟩)) i).mpr ?_
    refine Rect.mem_set_unit.mpr fun a => ?_
    have hq : (8 * (i 0).val + 7) / 8 = (i 0).val := by omega
    match a with
    | ⟨0, _⟩ =>
      show cc0_transform_1 (grid0.coords ⟨8 * (i 0).val + 7, hlt⟩) 0 * 1 ≤ (i 0).val
        ∧ (i 0).val < cc0_transform_1 (grid0.coords ⟨8 * (i 0).val + 7, hlt⟩) 0 * 1 + 1
      rw [(idx_out _).1.1]; show (8 * (i 0).val + 7) / 8 * 1 ≤ (i 0).val ∧ (i 0).val < (8 * (i 0).val + 7) / 8 * 1 + 1; omega
    | ⟨1, _⟩ =>
      show cc0_transform_1 (grid0.coords ⟨8 * (i 0).val + 7, hlt⟩) 1 * 1 ≤ (i 1).val
        ∧ (i 1).val < cc0_transform_1 (grid0.coords ⟨8 * (i 0).val + 7, hlt⟩) 1 * 1 + 1
      rw [(idx_out _).1.2.1]; omega
    | ⟨2, _⟩ =>
      show cc0_transform_1 (grid0.coords ⟨8 * (i 0).val + 7, hlt⟩) 2 * 16 ≤ (i 2).val
        ∧ (i 2).val < cc0_transform_1 (grid0.coords ⟨8 * (i 0).val + 7, hlt⟩) 2 * 16 + 16
      rw [(idx_out _).1.2.2]; omega
theorem final2 (hO : Ok m) (c : Dev nD) : (dats m hO 0 c).arrAt 2 (cfgM m hO).N = G2 m :=
  -- every index (b, 0, ch) of the array lies in block (b, 0, 0), which point 8·b + 7 writes back
  (dats m hO 0 c).arrAt_eq_of_cover 2 (G2 m) (flushed_eq_2 m hO c) fun (i : S16x1x16.Idx) => by
    have h0 : (i 0).val < 16 := (i 0).isLt
    have h1 : (i 1).val < 1 := (i 1).isLt
    have h2 : (i 2).val < 16 := (i 2).isLt
    have hlt : 8 * (i 0).val + 7 < (cfgM m hO).N := by rw [N_eq m hO]; omega
    refine ⟨⟨8 * (i 0).val + 7, hlt⟩, (flush0_2 (adm m hO) _).mpr (by show (8 * (i 0).val + 7) % 8 = 7; omega), ?_⟩
    show i ∈ ((View.whole main_v1_1).slice (((cfgM m hO).win 2).rect ⟨8 * (i 0).val + 7, hlt⟩)).set
    refine (Finset.ext_iff.mp (View.set_slice_whole main_v1_1 (((cfgM m hO).win 2).rect ⟨8 * (i 0).val + 7, hlt⟩)) i).mpr ?_
    refine Rect.mem_set_unit.mpr fun a => ?_
    have hq : (8 * (i 0).val + 7) / 8 = (i 0).val := by omega
    match a with
    | ⟨0, _⟩ =>
      show cc0_transform_2 (grid0.coords ⟨8 * (i 0).val + 7, hlt⟩) 0 * 1 ≤ (i 0).val
        ∧ (i 0).val < cc0_transform_2 (grid0.coords ⟨8 * (i 0).val + 7, hlt⟩) 0 * 1 + 1
      rw [(idx_out _).2.1.1]; show (8 * (i 0).val + 7) / 8 * 1 ≤ (i 0).val ∧ (i 0).val < (8 * (i 0).val + 7) / 8 * 1 + 1; omega
    | ⟨1, _⟩ =>
      show cc0_transform_2 (grid0.coords ⟨8 * (i 0).val + 7, hlt⟩) 1 * 1 ≤ (i 1).val
        ∧ (i 1).val < cc0_transform_2 (grid0.coords ⟨8 * (i 0).val + 7, hlt⟩) 1 * 1 + 1
      rw [(idx_out _).2.1.2.1]; omega
    | ⟨2, _⟩ =>
      show cc0_transform_2 (grid0.coords ⟨8 * (i 0).val + 7, hlt⟩) 2 * 16 ≤ (i 2).val
        ∧ (i 2).val < cc0_transform_2 (grid0.coords ⟨8 * (i 0).val + 7, hlt⟩) 2 * 16 + 16
      rw [(idx_out _).2.1.2.2]; omega
theorem final3 (hO : Ok m) (c : Dev nD) : (dats m hO 0 c).arrAt 3 (cfgM m hO).N = G3 m :=
  -- every index (b, 0, ch) of the array lies in block (b, 0, 0), which point 8·b + 7 writes back
  (dats m hO 0 c).arrAt_eq_of_cover 3 (G3 m) (flushed_eq_3 m hO c) fun (i : S16x1x1.Idx) => by
    have h0 : (i 0).val < 16 := (i 0).isLt
    have h1 : (i 1).val < 1 := (i 1).isLt
    have h2 : (i 2).val < 1 := (i 2).isLt
    have hlt : 8 * (i 0).val + 7 < (cfgM m hO).N := by rw [N_eq m hO]; omega
    refine ⟨⟨8 * (i 0).val + 7, hlt⟩, (flush0_3 (adm m hO) _).mpr (by show (8 * (i 0).val + 7) % 8 = 7; omega), ?_⟩
    show i ∈ ((View.whole main_v1_2).slice (((cfgM m hO).win 3).rect ⟨8 * (i 0).val + 7, hlt⟩)).set
    refine (Finset.ext_iff.mp (View.set_slice_whole main_v1_2 (((cfgM m hO).win 3).rect ⟨8 * (i 0).val + 7, hlt⟩)) i).mpr ?_
    refine Rect.mem_set_unit.mpr fun a => ?_
    have hq : (8 * (i 0).val + 7) / 8 = (i 0).val := by omega
    match a with
    | ⟨0, _⟩ =>
      show cc0_transform_3 (grid0.coords ⟨8 * (i 0).val + 7, hlt⟩) 0 * 1 ≤ (i 0).val
        ∧ (i 0).val < cc0_transform_3 (grid0.coords ⟨8 * (i 0).val + 7, hlt⟩) 0 * 1 + 1
      rw [(idx_out _).2.2.1]; show (8 * (i 0).val + 7) / 8 * 1 ≤ (i 0).val ∧ (i 0).val < (8 * (i 0).val + 7) / 8 * 1 + 1; omega
    | ⟨1, _⟩ =>
      show cc0_transform_3 (grid0.coords ⟨8 * (i 0).val + 7, hlt⟩) 1 * 1 ≤ (i 1).val
        ∧ (i 1).val < cc0_transform_3 (grid0.coords ⟨8 * (i 0).val + 7, hlt⟩) 1 * 1 + 1
      rw [(idx_out _).2.2.2.1]; omega
    | ⟨2, _⟩ =>
      show cc0_transform_3 (grid0.coords ⟨8 * (i 0).val + 7, hlt⟩) 2 * 1 ≤ (i 2).val
        ∧ (i 2).val < cc0_transform_3 (grid0.coords ⟨8 * (i 0).val + 7, hlt⟩) 2 * 1 + 1
      rw [(idx_out _).2.2.2.2]; omega

end Cert.KernelIdeal.Val

end
-- ==== Proof.KRun.lean ====
/-
  The kernel's run, read: after the region the host reshapes the three arrays, sums the divergence over the rows,
  takes the blank mass as the whole mass minus the active mass, and applies the shared chain of operations.
-/
import proofs.«409814_j1623497638139_2_alg».proof.Proof.Final
import proofs.«409814_j1623497638139_2_alg».proof.Proof.Spec
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen

variable (m : (ℓ : Loc nD τ sig) → Buf (Elt Ideal) ℓ)

variable (ρ : Dev nD → PrngReg)

/-! ## The region's arrays and the counts as the lines after the region find them -/

private theorem wa1 (c : Dev nD) :
    Pipeline.withArrays (Pipeline.pin pcfgs (fun _ => adm m trivial) 0).spec c (V0 m c)
      (fun w => (dats m trivial 0 c).arrAt w (Pipeline.pin pcfgs (fun _ => adm m trivial) 0).N) (Proc.devRef .tc main_v1_0)
      = G1 m :=
  (Pipeline.withArrays_arr spec0 (launch0 (F := Ideal)).win.arr_inj c _ _ 1).trans (final1 m trivial c)

private theorem wa2 (c : Dev nD) :
    Pipeline.withArrays (Pipeline.pin pcfgs (fun _ => adm m trivial) 0).spec c (V0 m c)
      (fun w => (dats m trivial 0 c).arrAt w (Pipeline.pin pcfgs (fun _ => adm m trivial) 0).N) (Proc.devRef .tc main_v1_1)
      = G2 m :=
  (Pipeline.withArrays_arr spec0 (launch0 (F := Ideal)).win.arr_inj c _ _ 2).trans (final2 m trivial c)

private theorem wa3 (c : Dev nD) :
    Pipeline.withArrays (Pipeline.pin pcfgs (fun _ => adm m trivial) 0).spec c (V0 m c)
      (fun w => (dats m trivial 0 c).arrAt w (Pipeline.pin pcfgs (fun _ => adm m trivial) 0).N) (Proc.devRef .tc main_v1_2)
      = G3 m :=
  (Pipeline.withArrays_arr spec0 (launch0 (F := Ideal)).win.arr_inj c _ _ 3).trans (final3 m trivial c)

private theorem wa_arg1 (c : Dev nD) :
    Pipeline.withArrays (Pipeline.pin pcfgs (fun _ => adm m trivial) 0).spec c (V0 m c)
      (fun w => (dats m trivial 0 c).arrAt w (Pipeline.pin pcfgs (fun _ => adm m trivial) 0).N) (Proc.devRef .tc main_arg1)
      = m ((c.tc : Thread nD τ).loc main_arg1) :=
  (Pipeline.withArrays_of_ne _ c (V0 m c) _ main_arg1 (by exact (by decide : ∀ w, Pipeline.arrRef spec0 w ≠ main_arg1))).trans
    (V_main_arg1 m c)

/-! ## The three reshapes and the sum over the rows -/

/-- A (16, 1, 16) array read as (16, 16): entry (b, c) is entry (b, 0, c), the same row-major position. -/
private theorem cast_S16x1x16 (x : S16x1x16.Idx → EReal) (j : S16x16.Idx) :
    shapeCast S16x16 x shapeCasts_S16x1x16_S16x16 j = x (ix3 (j 0) 0 (j 1)) :=
  shapeCast_apply x shapeCasts_S16x1x16_S16x16 j (ix3 (j 0) 0 (j 1))
    (by rw [Shape.rowMajor_val_three, Shape.rowMajor_val_two]
        show ((j 0).val * 1 + 0) * 16 + (j 1).val = (j 0).val * 16 + (j 1).val
        omega)

/-- A (16, 1, 1) array read as (16): entry b is entry (b, 0, 0). -/
private theorem cast_S16x1x1 (x : S16x1x1.Idx → EReal) (j : S16.Idx) :
    shapeCast S16 x shapeCasts_S16x1x1_S16 j = x (ix3 (j 0) 0 0) :=
  shapeCast_apply x shapeCasts_S16x1x1_S16 j (ix3 (j 0) 0 0)
    (by rw [Shape.rowMajor_val_three, Shape.rowMajor_val_one]
        show ((j 0).val * 1 + 0) * 1 + 0 = (j 0).val
        omega)

private theorem eA : shapeCast S16x16 (G1 m) shapeCasts_S16x1x16_S16x16 = fun j => TTVLoss.act (Xc m) (Lc m) (j 0) (j 1) :=
  funext fun j => (cast_S16x1x16 (G1 m) j).trans rfl

private theorem eT : shapeCast S16x16 (G2 m) shapeCasts_S16x1x16_S16x16 = fun j => TTVLoss.tot (Xc m) (j 0) (j 1) :=
  funext fun j => (cast_S16x1x16 (G2 m) j).trans rfl

/-- A rank-1 index set is its coordinate's range. -/
private def idxEquiv1 {n : Nat} : (⟨1, ![n]⟩ : Shape).Idx ≃ Fin n where
  toFun i := i 0
  invFun a := ix1 a
  left_inv i := (eq_ix1 i).symm
  right_inv _ := rfl

/-- The divergence summed over the rows: the host's sum of the reshaped (16) array from zero. -/
private theorem eK : Host.reduceAdd (F := Ideal) (shapeCast S16 (G3 m) shapeCasts_S16x1x1_S16) (constant S_ .f32 0x00000000#32) reducesTo_S16_S_d0 h_S_
      = fun _ => ∑ b : Fin 16, TTVLoss.klb (Xc m) (Lc m) b := by
  funext j
  show Ideal.hostReduceAdd reducesTo_S16_S_d0 _ (Ideal.ofBits .f32 0x00000000#32) j = _
  rw [Ideal.hostReduceAdd_total reducesTo_S16_S_d0 (fun b => b.elim0), Ideal.ofBits_zero_f32, zero_add,
    ← Equiv.sum_comp (idxEquiv1 (n := 16)).symm]
  refine Finset.sum_congr rfl fun b _ => ?_
  exact (cast_S16x1x1 (G3 m) _).trans rfl

set_option maxHeartbeats 4000000 in
/-- What the host's lines after the region leave in the result buffer. -/
private theorem tail_read (c : Dev nD) :
    Pipeline.afterTail pcfgs (fun _ => adm m trivial) (dats m trivial) 0 (V0 m) [hostOps1] c main_v44
      = TTVLoss.tail (fun j => TTVLoss.act (Xc m) (Lc m) (j 0) (j 1))
            (fun j => TTVLoss.tot (Xc m) (j 0) (j 1) - TTVLoss.act (Xc m) (Lc m) (j 0) (j 1))
            (fun _ => ∑ b : Fin 16, TTVLoss.klb (Xc m) (Lc m) b)
            (m (((0 : Dev nD).tc : Thread nD τ).loc main_arg1)) := by
  unfold Pipeline.afterTail
  show StableHlo.after hostOps1 _ (Proc.devRef .tc main_v44) = _
  after_results_simp
  rw [wa1 m c, wa2 m c, wa3 m c, wa_arg1 m c]
  obtain rfl : c = 0 := Subsingleton.elim _ _
  show TTVLoss.tail (shapeCast S16x16 (G1 m) shapeCasts_S16x1x16_S16x16)
      (subf (shapeCast S16x16 (G2 m) shapeCasts_S16x1x16_S16x16) (shapeCast S16x16 (G1 m) shapeCasts_S16x1x16_S16x16))
      (Host.reduceAdd (F := Ideal) (shapeCast S16 (G3 m) shapeCasts_S16x1x1_S16) (constant S_ .f32 0x00000000#32) reducesTo_S16_S_d0 h_S_)
      (m (((0 : Dev nD).tc : Thread nD τ).loc main_arg1)) = _
  rw [eA, eT, eK]
  rfl

theorem run : θ_run defs (onTc (τ := τ) (main (F := Ideal))) ⟨m, fun _ => 0, ρ⟩ fun r => ∀ c : Dev nD,
      r.2.mem ((c.tc : Thread nD τ).loc main_v44)
        = TTVLoss.tail (fun j => TTVLoss.act (Xc m) (Lc m) (j 0) (j 1))
            (fun j => TTVLoss.tot (Xc m) (j 0) (j 1) - TTVLoss.act (Xc m) (Lc m) (j 0) (j 1))
            (fun _ => ∑ b : Fin 16, TTVLoss.klb (Xc m) (Lc m) b)
            (m (((0 : Dev nD).tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ trivial)
  · exact ((h c).2 main_v44 (by decide : main_v44 ∈ Pipeline.restRefs sig spec0)).trans (tail_read m c)
  · exact ((h c).1 0).trans (((dats m trivial 0 c).arrAt_in 0 rfl _).trans ((A_eq m trivial c 0).trans (V_main_arg0 m c)))
  · exact ((h c).2 main_arg1 (by decide : main_arg1 ∈ Pipeline.restRefs sig spec0)).trans (W_main_arg1 m trivial (dats m trivial) c)
  · exact ((h c).2 main_arg2 (by decide : main_arg2 ∈ Pipeline.restRefs sig spec0)).trans (W_main_arg2 m trivial (dats m trivial) c)

end Cert.KernelIdeal.Val

end
-- ==== Proof.RefVal.lean ====
/-
  The reference's result as the loss `TTVLoss.tail` of the active mass, the blank mass, the total divergence and the
  counts. Its step indicator is the converted bit of "step number <ₛ length word"; its two masses are sums over the
  step, height and width axes of the masked clips from the zero; its divergence is the sum over the channel, then over
  every (row, step, height, width), of yt · log (yt / yp), from the zero; the rest is the shared chain of operations.
-/
import proofs.«409814_j1623497638139_2_alg».proof.Proof.Gen.ReferenceIdeal.Read
import proofs.«409814_j1623497638139_2_alg».proof.Proof.Spec
import proofs.«409814_j1623497638139_2_alg».proof.Proof.Sums
import proofs.«409814_j1623497638139_2_alg».proof.Proof.Mask
import Idealize.ShloMosaic.PureOps.Ideal.Laws
import Idealize.ShloMosaic.Lib.ValueIdx

noncomputable section

namespace Cert.ReferenceIdeal.RefVal

open Idealize.ShloMosaic Idealize.ShloMosaic.ValueIdx Cert.ReferenceIdeal Cert.ReferenceIdeal.Gen Cert.ReferenceIdeal.Read

variable (x0 : (⟨S16x1024x14x14x16, .f32⟩ : BufTy).Contents (Elt Ideal)) (x1 : (⟨S16x16, .f32⟩ : BufTy).Contents (Elt Ideal))
  (x2 : (⟨S16, .i32⟩ : BufTy).Contents (Elt Ideal))

/-- The word 0x3F800000 denotes one. -/
private theorem ofBits_one : Ideal.ofBits .f32 0x3F800000#32 = 1 := by
  simp [Ideal.ofBits, Ideal.ieee, -EReal.coe_mul] <;> norm_num

/-- The length word's index under the two broadcasts of the lengths is the row. -/
private theorem idx_len (b : Fin 16) (t : Fin 1024) : idx_main_v2 (idx_main_v4 (ix2 b t)) = ix1 b := by
  funext a; match a with | ⟨0, _⟩ => rfl

/-- The converted compare bit at (row, step) is the indicator of "step before the row's length". -/
private theorem v6_at (b : Fin 16) (t : Fin 1024) :
    val_main_v6 (F := Ideal) x2 (ix2 b t) = TTVLoss.msk (x2 (ix1 b)) t.val := by
  rw [val_main_v6_apply, val_main_v5_apply, val_main_v3_apply, val_main_v1_apply, val_main_v0_apply,
    val_main_v4_apply, val_main_v2_apply, idx_len]
  exact TTVLoss.msk_uitofp t.val (x2 (ix1 b))

/-- The indicator broadcast to [16, 1024, 1, 1, 1], read at any index lying over (row, step). -/
private theorem v7_of (i : S16x1024x1x1x1.Idx) (b : Fin 16) (t : Fin 1024) (hi : idx_main_v7 i = ix2 b t) :
    val_main_v7 (F := Ideal) x2 i = TTVLoss.msk (x2 (ix1 b)) t.val := by
  rw [val_main_v7_apply, hi]; exact v6_at x2 b t

/-- A clip's index lies over its (row, step). -/
private theorem idx_bt (b : Fin 16) (t : Fin 1024) (h w : Fin 14) (c : Fin 16) :
    idx_main_v7 (idx_main_v8 (ix5 b t h w c)) = ix2 b t := by
  funext a; match a with | ⟨0, _⟩ => rfl | ⟨1, _⟩ => rfl

/-- The masked clip. -/
private theorem v9_at (b : Fin 16) (t : Fin 1024) (h w : Fin 14) (c : Fin 16) :
    val_main_v9 (F := Ideal) x0 x2 (ix5 b t h w c) = x0 (ix5 b t h w c) * TTVLoss.msk (x2 (ix1 b)) t.val := by
  rw [val_main_v9_apply, val_main_v8_apply, v7_of x2 _ b t (idx_bt b t h w c)]; rfl

/-- The clip times (1 - mask). -/
private theorem v13_at (b : Fin 16) (t : Fin 1024) (h w : Fin 14) (c : Fin 16) :
    val_main_v13 (F := Ideal) x0 x2 (ix5 b t h w c)
      = x0 (ix5 b t h w c) * (1 - TTVLoss.msk (x2 (ix1 b)) t.val) := by
  rw [val_main_v13_apply, val_main_v12_apply, val_main_v11_apply, val_main_v10_apply, val_main_cst_apply,
    v7_of x2 _ b t (idx_bt b t h w c), Ideal.ofBits_def, ofBits_one]; rfl

/-- The clipped target at any index lying over (row, step). -/
private theorem v51_of (i : S16x1024x1x1x1.Idx) (b : Fin 16) (t : Fin 1024) (hi : idx_main_v7 i = ix2 b t) :
    val_main_v51 (F := Ideal) x2 i = TTVLoss.yt (TTVLoss.msk (x2 (ix1 b)) t.val) := by
  rw [val_main_v51_apply, val_main_call0_v4_apply, val_main_call0_v3_apply, val_main_cst_17_apply,
    val_main_call0_v2_apply, val_main_call0_v1_apply, val_main_call0_v0_apply, val_main_cst_16_apply,
    val_main_v50_apply, val_main_v49_apply, val_main_cst_15_apply, v7_of x2 i b t hi]
  rfl

/-- The clipped prediction of the masked clip. -/
private theorem v52_at (b : Fin 16) (t : Fin 1024) (h w : Fin 14) (c : Fin 16) :
    val_main_v52 (F := Ideal) x0 x2 (ix5 b t h w c)
      = TTVLoss.yp (x0 (ix5 b t h w c) * TTVLoss.msk (x2 (ix1 b)) t.val) := by
  rw [val_main_v52_apply, val_main_call1_v4_apply, val_main_call1_v3_apply, val_main_cst_19_apply,
    val_main_call1_v2_apply, val_main_call1_v1_apply, val_main_call1_v0_apply, val_main_cst_18_apply, v9_at]
  rfl

/-- One element of the divergence. -/
private theorem v57_at (b : Fin 16) (t : Fin 1024) (h w : Fin 14) (c : Fin 16) :
    val_main_v57 (F := Ideal) x0 x2 (ix5 b t h w c)
      = TTVLoss.klE (TTVLoss.msk (x2 (ix1 b)) t.val) (x0 (ix5 b t h w c) * TTVLoss.msk (x2 (ix1 b)) t.val) := by
  rw [val_main_v57_apply, val_main_v56_apply, val_main_v55_apply, val_main_v54_apply, val_main_v53_apply,
    v51_of x2 _ b t (idx_bt b t h w c), v52_at]
  rfl

/-- The index of channel `c` under (row, step, height, width). -/
private theorem idx_58 (b : Fin 16) (t : Fin 1024) (h w : Fin 14) (c : Fin 16) :
    idx_main_v58 (ix4 b t h w) c = ix5 b t h w c := by
  funext a; match a with | ⟨0, _⟩ => rfl | ⟨1, _⟩ => rfl | ⟨2, _⟩ => rfl | ⟨3, _⟩ => rfl | ⟨4, _⟩ => rfl

/-- The active mass: the reduce over the step, height and width axes of the masked clips. -/
theorem v14_eq : val_main_v14 (F := Ideal) x0 x2 = fun j => TTVLoss.act x0 x2 (j 0) (j 1) := by
  funext j
  refine (show val_main_v14 (F := Ideal) x0 x2 j = Ideal.ofBits .f32 0x00000000#32
    + ∑ i ∈ Finset.univ.filter (fun i => reducesTo_S16x1024x14x14x16_S16x16_d1_2_3.drop i = j),
        val_main_v9 (F := Ideal) x0 x2 i from rfl).trans ?_
  rw [Ideal.ofBits_zero_f32, zero_add,
    TTVLoss.sum_drop123 reducesTo_S16x1024x14x14x16_S16x16_d1_2_3 (val_main_v9 (F := Ideal) x0 x2) j]
  unfold TTVLoss.act
  exact Finset.sum_congr rfl fun t _ => Finset.sum_congr rfl fun h _ => Finset.sum_congr rfl fun w _ =>
    v9_at x0 x2 (j 0) t h w (j 1)

/-- The blank mass: the same of the clips times (1 - mask). -/
theorem v15_eq : val_main_v15 (F := Ideal) x0 x2 = fun j => TTVLoss.blk x0 x2 (j 0) (j 1) := by
  funext j
  refine (show val_main_v15 (F := Ideal) x0 x2 j = Ideal.ofBits .f32 0x00000000#32
    + ∑ i ∈ Finset.univ.filter (fun i => reducesTo_S16x1024x14x14x16_S16x16_d1_2_3.drop i = j),
        val_main_v13 (F := Ideal) x0 x2 i from rfl).trans ?_
  rw [Ideal.ofBits_zero_f32, zero_add,
    TTVLoss.sum_drop123 reducesTo_S16x1024x14x14x16_S16x16_d1_2_3 (val_main_v13 (F := Ideal) x0 x2) j]
  unfold TTVLoss.blk
  exact Finset.sum_congr rfl fun t _ => Finset.sum_congr rfl fun h _ => Finset.sum_congr rfl fun w _ =>
    v13_at x0 x2 (j 0) t h w (j 1)

/-- The total divergence. -/
theorem v59_eq : val_main_v59 (F := Ideal) x0 x2 = fun _ => ∑ b : Fin 16, TTVLoss.klb x0 x2 b := by
  funext i
  rw [val_main_v59_apply, val_main_cst_21_apply, Ideal.ofBits_def, Ideal.ofBits_zero_f32, zero_add,
    TTVLoss.sum_idx4]
  unfold TTVLoss.klb
  refine Finset.sum_congr rfl fun b _ => Finset.sum_congr rfl fun t _ => Finset.sum_congr rfl fun h _ =>
    Finset.sum_congr rfl fun w _ => ?_
  rw [val_main_v58_apply, val_main_cst_20_apply, Ideal.ofBits_def, Ideal.ofBits_zero_f32, zero_add]
  refine Finset.sum_congr rfl fun c _ => ?_
  rw [idx_58, v57_at]

/-- The chain after those three values is the shared one. -/
theorem v64_tail : val_main_v64 (F := Ideal) x0 x1 x2
    = TTVLoss.tail (val_main_v14 (F := Ideal) x0 x2) (val_main_v15 (F := Ideal) x0 x2) (val_main_v59 (F := Ideal) x0 x2) x1 := by
  unfold val_main_v64 val_main_v63 val_main_v62 val_main_v61 val_main_v60 val_main_v48 val_main_v47 val_main_v46
    val_main_v45 val_main_v44 val_main_v43 val_main_v42 val_main_v41 val_main_v40 val_main_v39 val_main_v38
    val_main_v37 val_main_v36 val_main_v35 val_main_v34 val_main_v33 val_main_v32 val_main_v31 val_main_v30
    val_main_v29 val_main_v28 val_main_v27 val_main_v26 val_main_v25 val_main_v24 val_main_v23 val_main_v22
    val_main_v21 val_main_v20 val_main_v19 val_main_v18 val_main_v17 val_main_v16
    val_main_cst_2 val_main_cst_3 val_main_cst_4 val_main_cst_5 val_main_cst_6 val_main_cst_7 val_main_cst_8
    val_main_cst_9 val_main_cst_10 val_main_cst_11 val_main_cst_12 val_main_cst_13 val_main_cst_14
    val_main_cst_22 val_main_cst_23 TTVLoss.tail TTVLoss.huberMean
  rfl

theorem ref_value : val_main_v64 (F := Ideal) x0 x1 x2
    = TTVLoss.tail (fun j => TTVLoss.act x0 x2 (j 0) (j 1)) (fun j => TTVLoss.blk x0 x2 (j 0) (j 1))
        (fun _ => ∑ b : Fin 16, TTVLoss.klb x0 x2 b) x1 := by
  rw [v64_tail, v14_eq, v15_eq, v59_eq]

end Cert.ReferenceIdeal.RefVal

end
-- ==== Proof.Finite.lean ====
/-
  Under the precondition every clip is a real number: the precondition is the conjunction of two "all" reductions,
  the first saying |x| < +∞ at every index of the clips; an extended real whose absolute value (max x (-x)) is below
  +∞ is neither +∞ nor -∞.
-/
import proofs.«409814_j1623497638139_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

theorem clips_finite [Cert.Pre_finite_inputs.Facts] (x0 : FVec Ideal S16x1024x14x14x16 .f32) (x1 : FVec Ideal S16x16 .f32)
    (x2 : IVec S16 32) (h : Cert.Pre_finite_inputs.fn (F := Ideal) x0 x1 x2 = fun _ => 1#1) :
    ∀ i, x0 i ≠ ⊤ ∧ x0 i ≠ ⊥ := by
  intro i
  -- the precondition at its one index: a conjunction of two "all" reductions, each equal to one
  have h0 := congrFun h ValueIdx.ix0
  dsimp only [Cert.Pre_finite_inputs.fn] at h0
  obtain ⟨h1, _⟩ := IntOp.andi_eq_one.1 h0
  -- the first reduction runs over all five axes: every compare bit of the clips is one
  haveI : Subsingleton S_.Idx := ⟨fun a b => funext fun d => d.elim0⟩
  have hi := Host.reduce_andi_all _ _ _ _ _ h1 i
  -- the pattern 0x7F800000 denotes +∞
  have hinf : (FloatOps.ofBits FTy.f32 0x7F800000#32 : Ideal .f32) = (⊤ : EReal) := by
    show Ideal.ofBits .f32 0x7F800000#32 = (⊤ : EReal)
    simp [Ideal.ofBits, Ideal.ieee]
  -- the compare bit at i says |x0 i| = max (x0 i) (-(x0 i)) < +∞
  have hlt : max (x0 i) (-(x0 i)) < (⊤ : EReal) := by
    simp only [cmpf, Host.absf, broadcastInDim, constant, Ideal.hostAbsf_def, Ideal.cmpf_def, Ideal.absf_def, Ideal.cmp, hinf] at hi
    by_contra hc
    rw [decide_eq_false hc] at hi
    exact absurd hi (by decide)
  -- at +∞ and at -∞ that maximum is +∞
  constructor
  · intro ht; rw [ht] at hlt; simp at hlt
  · intro hb; rw [hb] at hlt; simp at hlt

end Cert.Pre_finite_inputs.Finite

end
-- ==== Proof.Claims.lean ====
/-
  The five claims. The frames are the generated ones (the kernel's index maps read no table word, so their side
  condition is empty); the idealization rewrote nothing; and at the extended reals both programs end at the loss
  `TTVLoss.tail` of the same active mass, the same divergence and the same counts, the kernel's blank mass being the
  whole mass minus the active mass and the reference's the sum of the clips times (1 - indicator): equal where every
  clip is a real number, which the precondition says.
-/
import proofs.«409814_j1623497638139_2_alg».proof.Defs
import proofs.«409814_j1623497638139_2_alg».proof.Proof.Gen.Kernel.Frame
import proofs.«409814_j1623497638139_2_alg».proof.Proof.Gen.KernelIdeal.Frame
import proofs.«409814_j1623497638139_2_alg».proof.Proof.Gen.ReferenceIdeal.Run
import proofs.«409814_j1623497638139_2_alg».proof.Proof.Gen.ReferenceIdeal.Read
import proofs.«409814_j1623497638139_2_alg».proof.Proof.Gen.Pre_finite_inputs
import proofs.«409814_j1623497638139_2_alg».proof.Proof.KRun
import proofs.«409814_j1623497638139_2_alg».proof.Proof.RefVal
import proofs.«409814_j1623497638139_2_alg».proof.Proof.Finite
import proofs.«409814_j1623497638139_2_alg».proof.Proof.Sums

noncomputable section

open Idealize.ShloMosaic Idealize.ShloMosaic.TcCoe Idealize.SL.Sem

namespace Cert.Proof.Claims

theorem frame_k : Cert.frame_Kernel := fun m ρ _ => Cert.Kernel.Gen.frame m ρ trivial
theorem frame_ki : Cert.frame_KernelIdeal := fun m ρ _ => Cert.KernelIdeal.Gen.frame m ρ trivial
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  -- every clip is a real number
  have hfin : ∀ i, Cert.KernelIdeal.Val.Xc m i ≠ ⊤ ∧ Cert.KernelIdeal.Val.Xc m i ≠ ⊥ :=
    Cert.Pre_finite_inputs.Finite.clips_finite _ _ _ (hpre 0)
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v64_eq m' 0, Cert.ReferenceIdeal.RefVal.ref_value,
    (hagree 0).1, (hagree 0).2.1, (hagree 0).2.2]
  -- the two losses differ in the blank mass only: the sum of the clips times (1 - indicator) against
  -- the whole mass minus the active mass
  refine congrArg (fun B => TTVLoss.tail _ B _ _) ?_
  funext j
  exact (TTVLoss.tot_sub_act (Cert.KernelIdeal.Val.Xc m) (Cert.KernelIdeal.Val.Lc m) hfin (j 0) (j 1)).symm

end Cert.Proof.Claims

end
-- ==== Proof.lean ====
/-
  A masked streaming reduction against its plain formula. For clips x[b, t, h, w, c], counts and a length word per
  row b, with msk(b, t) the indicator of t < length b, both programs compute per row
      mean-Huber(act b · - count b ·) + mean-Huber(blank b ·) + (∑_b klb b) / (number of positions) · (1/10 as f32)
  where act b c = ∑ x·msk, blank b c is the mass of the steps past the length, and klb b is the divergence
  ∑ yt·log(yt/yp) of the clipped uniform target from the clipped active prediction.
  The kernel walks each row in eight time tiles of 128 steps, carrying three running sums (active mass, whole mass,
  divergence) that it resets at a row's first tile and writes back after its last, against the length word clamped to
  [0, 1024]; the host then takes the blank mass as whole - active. The reference sums x·msk and x·(1 - msk) directly.
  Over the extended reals the two agree: sums may be regrouped freely, a step below 1024 is before the clamped
  length exactly when it is before the length, and whole - active = ∑ x·(1 - msk) where every clip is a real number,
  which is what the precondition says. The five claims are assembled in Proof/Claims.lean.
-/
import proofs.«409814_j1623497638139_2_alg».proof.Defs
import proofs.«409814_j1623497638139_2_alg».proof.Proof.Gen.Kernel
import proofs.«409814_j1623497638139_2_alg».proof.Proof.Gen.Kernel.Skeleton
import proofs.«409814_j1623497638139_2_alg».proof.Proof.Gen.Kernel.Launch
import proofs.«409814_j1623497638139_2_alg».proof.Proof.Gen.Kernel.Points
import proofs.«409814_j1623497638139_2_alg».proof.Proof.Gen.Kernel.Frame
import proofs.«409814_j1623497638139_2_alg».proof.Proof.Gen.KernelIdeal
import proofs.«409814_j1623497638139_2_alg».proof.Proof.Gen.KernelIdeal.Skeleton
import proofs.«409814_j1623497638139_2_alg».proof.Proof.Gen.KernelIdeal.Launch
import proofs.«409814_j1623497638139_2_alg».proof.Proof.Gen.KernelIdeal.Points
import proofs.«409814_j1623497638139_2_alg».proof.Proof.Gen.KernelIdeal.Frame
import proofs.«409814_j1623497638139_2_alg».proof.Proof.Gen.ReferenceIdeal
import proofs.«409814_j1623497638139_2_alg».proof.Proof.Gen.Pre_finite_inputs
import proofs.«409814_j1623497638139_2_alg».proof.Proof.Gen.ReferenceIdeal.Run
import proofs.«409814_j1623497638139_2_alg».proof.Proof.Gen.ReferenceIdeal.Read
import proofs.«409814_j1623497638139_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
